-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x128 : Shape := ⟨2, ![400000, 128]⟩
abbrev S800000x128 : Shape := ⟨2, ![800000, 128]⟩
abbrev S128x128 : Shape := ⟨2, ![128, 128]⟩
abbrev S128 : Shape := ⟨1, ![128]⟩
abbrev S100000 : Shape := ⟨1, ![100000]⟩
abbrev S400000x2 : Shape := ⟨2, ![400000, 2]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128x128 .f32) (main_arg5 : FVec F S128x128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_v13 : IVec S_ 1) (main_v16 : IVec S800000x128 1) : IVec S_ 1 :=
  let main_c_5 : IVec S_ 1 := constantI S_ 1 1#1
  let main_v17 : IVec S_ 1 := (fun x v => Host.reduce IntOp.andi x v reducesTo_S800000x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S400000x128 .f32) (main_arg2 : FVec F S400000x128 .f32) (main_arg3 : FVec F S800000x128 .f32) (main_arg4 : FVec F S128x128 .f32) (main_arg5 : FVec F S128x128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : IVec S100000 1) (main_arg15 : IVec S400000x2 32) (main_arg16 : IVec S400000x2 32) (main_arg17 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S800000x128 .f32 := Host.absf main_arg3
  let main_cst_4 : FVec F S_ .f32 := constant S_ .f32 0x7F800000#32
  let main_v15 : FVec F S800000x128 .f32 := broadcastInDim S800000x128 ![] bcast_S_S800000x128 main_cst_4
  let main_v16 : IVec S800000x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S400000x128 : Shape := ⟨2, ![400000, 128]⟩
abbrev S800000x128 : Shape := ⟨2, ![800000, 128]⟩
abbrev S128x128 : Shape := ⟨2, ![128, 128]⟩
abbrev S128 : Shape := ⟨1, ![128]⟩
abbrev S100000 : Shape := ⟨1, ![100000]⟩
abbrev S400000x2 : Shape := ⟨2, ![400000, 2]⟩
abbrev S800000 : Shape := ⟨1, ![800000]⟩
abbrev S400000x1 : Shape := ⟨2, ![400000, 1]⟩
abbrev S400000 : Shape := ⟨1, ![400000]⟩
abbrev S_ : Shape := ⟨0, ![]⟩
abbrev S800000x1 : Shape := ⟨2, ![800000, 1]⟩
abbrev S8000x128 : Shape := ⟨2, ![8000, 128]⟩
abbrev S8000 : Shape := ⟨1, ![8000]⟩
abbrev S8000x1 : Shape := ⟨2, ![8000, 1]⟩
abbrev S1x128 : Shape := ⟨2, ![1, 128]⟩
abbrev S10000x128 : Shape := ⟨2, ![10000, 128]⟩

abbrev nBuf : Space → Nat
  | .hbm => 69
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x128, .f32⟩
  | .hbm, ⟨3, _⟩ => ⟨S800000x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S100000, .i1⟩
  | .hbm, ⟨15, _⟩ => ⟨S400000x2, .i32⟩
  | .hbm, ⟨16, _⟩ => ⟨S400000x2, .i32⟩
  | .hbm, ⟨17, _⟩ => ⟨S800000, .i32⟩
  | .hbm, ⟨18, _⟩ => ⟨S400000x1, .i32⟩
  | .hbm, ⟨19, _⟩ => ⟨S400000, .i32⟩
  | .hbm, ⟨20, _⟩ => ⟨S400000x1, .i32⟩
  | .hbm, ⟨21, _⟩ => ⟨S400000, .i32⟩
  | .hbm, ⟨22, _⟩ => ⟨S400000x1, .i32⟩
  | .hbm, ⟨23, _⟩ => ⟨S400000, .i32⟩
  | .hbm, ⟨24, _⟩ => ⟨S400000x1, .i32⟩
  | .hbm, ⟨25, _⟩ => ⟨S400000, .i32⟩
  | .hbm, ⟨26, _⟩ => ⟨S_, .f32⟩
  | .hbm, ⟨27, _⟩ => ⟨S400000x128, .f32⟩
  | .hbm, ⟨28, _⟩ => ⟨S800000x1, .i32⟩
  | .hbm, ⟨29, _⟩ => ⟨S400000x128, .f32⟩
  | .hbm, ⟨30, _⟩ => ⟨S_, .i32⟩
  | .hbm, ⟨31, _⟩ => ⟨S400000, .i32⟩
  | .hbm, ⟨32, _⟩ => ⟨S400000, .i1⟩
  | .hbm, ⟨33, _⟩ => ⟨S_, .i32⟩
  | .hbm, ⟨34, _⟩ => ⟨S400000, .i32⟩
  | .hbm, ⟨35, _⟩ => ⟨S400000, .i32⟩
  | .hbm, ⟨36, _⟩ => ⟨S400000, .i32⟩
  | .hbm, ⟨37, _⟩ => ⟨S400000x1, .i32⟩
  | .hbm, ⟨38, _⟩ => ⟨S400000x128, .f32⟩
  | .hbm, ⟨39, _⟩ => ⟨S400000x128, .f32⟩
  | .hbm, ⟨40, _⟩ => ⟨S_, .f32⟩
  | .hbm, ⟨41, _⟩ => ⟨S100000x128, .f32⟩
  | .hbm, ⟨42, _⟩ => ⟨S400000x1, .i32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000x128, .f32⟩
  | .hbm, ⟨54, _⟩ => ⟨S_, .i32⟩
  | .hbm, ⟨55, _⟩ => ⟨S400000, .i32⟩
  | .hbm, ⟨56, _⟩ => ⟨S400000, .i1⟩
  | .hbm, ⟨57, _⟩ => ⟨S_, .i32⟩
  | .hbm, ⟨58, _⟩ => ⟨S400000, .i32⟩
  | .hbm, ⟨59, _⟩ => ⟨S400000, .i32⟩
  | .hbm, ⟨60, _⟩ => ⟨S400000, .i32⟩
  | .hbm, ⟨61, _⟩ => ⟨S400000x1, .i32⟩
  | .hbm, ⟨62, _⟩ => ⟨S400000x128, .f32⟩
  | .hbm, ⟨63, _⟩ => ⟨S400000x128, .f32⟩
  | .hbm, ⟨64, _⟩ => ⟨S_, .f32⟩
  | .hbm, ⟨65, _⟩ => ⟨S100000x128, .f32⟩
  | .hbm, ⟨66, _⟩ => ⟨S400000x1, .i32⟩
  | .hbm, ⟨67, _⟩ => ⟨S100000x128, .f32⟩
  | .hbm, ⟨68, _⟩ => ⟨S100000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S128, .f32⟩
  | .local _ .vmem, ⟨7, _⟩ => ⟨S128, .f32⟩
  | .local _ .vmem, ⟨8, _⟩ => ⟨S128x128, .f32⟩
  | .local _ .vmem, ⟨9, _⟩ => ⟨S8000x128, .f32⟩
  | .local _ .vmem, ⟨10, _⟩ => ⟨S8000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S128x128, .f32⟩
  | .local _ .vmem, ⟨16, _⟩ => ⟨S128, .f32⟩
  | .local _ .vmem, ⟨17, _⟩ => ⟨S10000x128, .f32⟩
  | .local _ .vmem, ⟨18, _⟩ => ⟨S10000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S128, .f32⟩
  | .local _ .vmem, ⟨26, _⟩ => ⟨S128, .f32⟩
  | .local _ .vmem, ⟨27, _⟩ => ⟨S128x128, .f32⟩
  | .local _ .vmem, ⟨28, _⟩ => ⟨S8000x128, .f32⟩
  | .local _ .vmem, ⟨29, _⟩ => ⟨S8000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S128, .f32⟩
  | .local _ .vmem, ⟨36, _⟩ => ⟨S10000x128, .f32⟩
  | .local _ .vmem, ⟨37, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000x128 : S_.BroadcastsInDim S400000x128 (![] : Fin 0 → Fin S400000x128.rank)
  bcast_S800000_S800000x1_0 : S800000.BroadcastsInDim S800000x1 (![0] : Fin 1 → Fin S800000x1.rank)
  bcast_S_S400000 : S_.BroadcastsInDim S400000 (![] : Fin 0 → Fin S400000.rank)
  bcast_S400000_S400000x1_0 : S400000.BroadcastsInDim S400000x1 (![0] : Fin 1 → Fin S400000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128_S128_0 : ∀ a, (![0] : Fin 1 → Nat) a + S128.size a ≤ S128.size a
  h_S128 : 0 < S128.numel
  reduces_S8000x128_S8000 : S8000x128.Reduces [1] S8000
  shapeCasts_S8000_S8000x1 : S8000.ShapeCasts S8000x1
  broadcasts_S8000x1_S8000x128 : S8000x1.Broadcasts S8000x128
  shapeCasts_S128_S1x128 : S128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  scatter_S400000x128_S800000x1_S800000x128_1_0_0_1_wf : ScatterDims.WF S400000x128 S800000x1 S800000x128 [1] [0] [0] 1
  gather_S100000x128_S400000x1_S400000x128_1_0_n_n_0_1_1128_wf : GatherDims.WF S100000x128 S400000x1 S400000x128 [1] [0] [] [0] [] 1 ![1, 128]
  dot_S8000x128_S128x128_S8000x128_1_0_0_1_n_n_wf : DotDims.WF S8000x128 S128x128 S8000x128 [1] [0] [0] [1] [] []
  scatter_S100000x128_S400000x1_S400000x128_1_0_0_1_wf : ScatterDims.WF S100000x128 S400000x1 S400000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S400000x128.size a
  hwx0_1 : ∀ i : grid0.Coords, EltTy.bits .f32 = 32 ∨ (Rect.block (s := S400000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S400000x128.size a
  hwx0_2 : ∀ i : grid0.Coords, EltTy.bits .f32 = 32 ∨ (Rect.block (s := S400000x128) S8000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S400000x128.size a
  hwx0_6 : ∀ i : grid0.Coords, EltTy.bits .f32 = 32 ∨ (Rect.block (s := S400000x128) S8000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S400000x128.size a
  hwx2_0 : ∀ i : grid2.Coords, EltTy.bits .f32 = 32 ∨ (Rect.block (s := S400000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S400000x128.size a
  hwx2_1 : ∀ i : grid2.Coords, EltTy.bits .f32 = 32 ∨ (Rect.block (s := S400000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S400000x128.size a
  hwx2_2 : ∀ i : grid2.Coords, EltTy.bits .f32 = 32 ∨ (Rect.block (s := S400000x128) S8000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x128.size a ≤ S400000x128.size a
  hwx2_6 : ∀ i : grid2.Coords, EltTy.bits .f32 = 32 ∨ (Rect.block (s := S400000x128) S8000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S100000x128.size a
  hwx3_4 : ∀ i : grid3.Coords, EltTy.bits .f32 = 32 ∨ (Rect.block (s := S100000x128) S10000x128.size (cc3_transform_4 i) (hinb3_4 i)).WholeWords (EltTy.packing .f32)

variable [Facts₀]

def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v17) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S8000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S8000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S8000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S8000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v40) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S400000x128 : Shape := ⟨2, ![400000, 128]⟩
abbrev S800000x128 : Shape := ⟨2, ![800000, 128]⟩
abbrev S128x128 : Shape := ⟨2, ![128, 128]⟩
abbrev S128 : Shape := ⟨1, ![128]⟩
abbrev S100000 : Shape := ⟨1, ![100000]⟩
abbrev S400000x2 : Shape := ⟨2, ![400000, 2]⟩
abbrev S800000 : Shape := ⟨1, ![800000]⟩
abbrev S_ : Shape := ⟨0, ![]⟩
abbrev S100000x1 : Shape := ⟨2, ![100000, 1]⟩
abbrev S1x128 : Shape := ⟨2, ![1, 128]⟩
abbrev S800000x1 : Shape := ⟨2, ![800000, 1]⟩
abbrev S400000x1 : Shape := ⟨2, ![400000, 1]⟩
abbrev S400000 : Shape := ⟨1, ![400000]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S400000x128, .f32⟩
  | 2 => ⟨S400000x128, .f32⟩
  | 3 => ⟨S800000x128, .f32⟩
  | 4 => ⟨S128x128, .f32⟩
  | 5 => ⟨S128x128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S100000, .i1⟩
  | 15 => ⟨S400000x2, .i32⟩
  | 16 => ⟨S400000x2, .i32⟩
  | 17 => ⟨S800000, .i32⟩
  | 18 => ⟨S_, .f32⟩
  | 19 => ⟨S100000, .f32⟩
  | 20 => ⟨S100000x1, .f32⟩
  | 21 => ⟨S_, .f32⟩
  | 22 => ⟨S100000x1, .f32⟩
  | 23 => ⟨S100000x1, .f32⟩
  | 24 => ⟨S100000x128, .f32⟩
  | 25 => ⟨S100000x128, .f32⟩
  | 26 => ⟨S100000x128, .f32⟩
  | 27 => ⟨S_, .f32⟩
  | 28 => ⟨S100000, .f32⟩
  | 29 => ⟨S100000x1, .f32⟩
  | 30 => ⟨S_, .f32⟩
  | 31 => ⟨S100000x1, .f32⟩
  | 32 => ⟨S100000x1, .f32⟩
  | 33 => ⟨S100000x128, .f32⟩
  | 34 => ⟨S100000x128, .f32⟩
  | 35 => ⟨S_, .f32⟩
  | 36 => ⟨S100000x1, .f32⟩
  | 37 => ⟨S100000x1, .f32⟩
  | 38 => ⟨S100000x1, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S400000x128, .f32⟩
  | 49 => ⟨S800000x1, .i32⟩
  | 50 => ⟨S400000x128, .f32⟩
  | 51 => ⟨S400000x1, .i32⟩
  | 52 => ⟨S400000, .i32⟩
  | 53 => ⟨S400000x1, .i32⟩
  | 54 => ⟨S400000, .i32⟩
  | 55 => ⟨S_, .i32⟩
  | 56 => ⟨S400000, .i32⟩
  | 57 => ⟨S400000, .i1⟩
  | 58 => ⟨S_, .i32⟩
  | 59 => ⟨S400000, .i32⟩
  | 60 => ⟨S400000, .i32⟩
  | 61 => ⟨S400000, .i32⟩
  | 62 => ⟨S400000x1, .i32⟩
  | 63 => ⟨S400000x128, .f32⟩
  | 64 => ⟨S400000x128, .f32⟩
  | 65 => ⟨S400000x128, .f32⟩
  | 66 => ⟨S400000x128, .f32⟩
  | 67 => ⟨S_, .f32⟩
  | 68 => ⟨S400000x128, .f32⟩
  | 69 => ⟨S400000x128, .f32⟩
  | 70 => ⟨S_, .f32⟩
  | 71 => ⟨S100000x128, .f32⟩
  | 72 => ⟨S400000x1, .i32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S100000x128, .f32⟩
  | 79 => ⟨S_, .f32⟩
  | 80 => ⟨S100000, .f32⟩
  | 81 => ⟨S100000x1, .f32⟩
  | 82 => ⟨S_, .f32⟩
  | 83 => ⟨S100000x1, .f32⟩
  | 84 => ⟨S100000x1, .f32⟩
  | 85 => ⟨S100000x128, .f32⟩
  | 86 => ⟨S100000x128, .f32⟩
  | 87 => ⟨S100000x128, .f32⟩
  | 88 => ⟨S_, .f32⟩
  | 89 => ⟨S100000, .f32⟩
  | 90 => ⟨S100000x1, .f32⟩
  | 91 => ⟨S_, .f32⟩
  | 92 => ⟨S100000x1, .f32⟩
  | 93 => ⟨S100000x1, .f32⟩
  | 94 => ⟨S100000x128, .f32⟩
  | 95 => ⟨S100000x128, .f32⟩
  | 96 => ⟨S_, .f32⟩
  | 97 => ⟨S100000x1, .f32⟩
  | 98 => ⟨S100000x1, .f32⟩
  | 99 => ⟨S100000x1, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S400000x1, .i32⟩
  | 109 => ⟨S400000, .i32⟩
  | 110 => ⟨S400000x1, .i32⟩
  | 111 => ⟨S400000, .i32⟩
  | 112 => ⟨S_, .i32⟩
  | 113 => ⟨S400000, .i32⟩
  | 114 => ⟨S400000, .i1⟩
  | 115 => ⟨S_, .i32⟩
  | 116 => ⟨S400000, .i32⟩
  | 117 => ⟨S400000, .i32⟩
  | 118 => ⟨S400000, .i32⟩
  | 119 => ⟨S400000x1, .i32⟩
  | 120 => ⟨S400000x128, .f32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S100000x128, .f32⟩

abbrev hbmTy0_1 (i : Nat) : BufTy := match i % 128 with
  | 0 => ⟨S400000x1, .i32⟩
  | 1 => ⟨S400000x128, .f32⟩
  | 2 => ⟨S400000x128, .f32⟩
  | 3 => ⟨S400000x128, .f32⟩
  | 4 => ⟨S400000x128, .f32⟩
  | 5 => ⟨S_, .f32⟩
  | 6 => ⟨S400000x128, .f32⟩
  | 7 => ⟨S400000x128, .f32⟩
  | 8 => ⟨S_, .f32⟩
  | 9 => ⟨S100000x128, .f32⟩
  | 10 => ⟨S400000x1, .i32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call0_cst : Ref sig .tc := ⟨.hbm, 67, rfl⟩
abbrev main_call0_v0 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_12 : Ref sig .tc := ⟨.hbm, 112, rfl⟩
abbrev main_v78 : Ref sig .tc := ⟨.hbm, 113, rfl⟩
abbrev main_v79 : Ref sig .tc := ⟨.hbm, 114, rfl⟩
abbrev main_c_13 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_14 : Ref sig .tc := ⟨.hbm, 121, rfl⟩
abbrev main_v85 : Ref sig .tc := ⟨.hbm, 122, rfl⟩
abbrev main_v86 : Ref sig .tc := ⟨.hbm, 123, rfl⟩
abbrev main_c_15 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call1_cst : Ref sig .tc := ⟨.hbm, 133, rfl⟩
abbrev main_call1_v0 : Ref sig .tc := ⟨.hbm, 134, rfl⟩
abbrev main_v95 : Ref sig .tc := ⟨.hbm, 135, rfl⟩
abbrev main_cst_16 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S400000x128 : S_.BroadcastsInDim S400000x128 (![] : Fin 0 → Fin S400000x128.rank)
  bcast_S800000_S800000x1_0 : S800000.BroadcastsInDim S800000x1 (![0] : Fin 1 → Fin S800000x1.rank)
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  scatter_S400000x128_S800000x1_S800000x128_1_0_0_1_wf : ScatterDims.WF S400000x128 S800000x1 S800000x128 [1] [0] [0] 1
  gather_S100000x128_S400000x1_S400000x128_1_0_n_n_0_1_1128_wf : GatherDims.WF S100000x128 S400000x1 S400000x128 [1] [0] [] [0] [] 1 ![1, 128]
  dot_S400000x128_S128x128_S400000x128_1_0_0_1_n_n_wf : DotDims.WF S400000x128 S128x128 S400000x128 [1] [0] [0] [1] [] []
  scatter_S100000x128_S400000x1_S400000x128_1_0_0_1_wf : ScatterDims.WF S100000x128 S400000x1 S400000x128 [1] [0] [0] 1
  dot_S100000x128_S128x128_S100000x128_1_0_0_1_n_n_wf : DotDims.WF S100000x128 S128x128 S100000x128 [1] [0] [0] [1] [] []

variable [Facts₀]

def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Rows.lean ====
/-
  The layer's arithmetic on single rows of extended reals.

  One row `v : Fin 128 → EReal` is normalised by its mean and variance (both quotients by the float 128, the
  variance shifted by the float 1e-5 before the reciprocal square root), scaled and shifted column by column;
  a message row is the matrix product of a summed row with a 128 × 128 matrix, clipped below at zero; a residual
  row adds a matrix product and a bias row to the row it updates.  Both programs compute exactly these
  functions of rows; they differ in which rows they are applied to first, and in how the residual's
  three summands are bracketed.
-/
import Idealize.ShloMosaic.PureOps.Ideal
import Idealize.ShloMosaic.PureOps.Ideal.Laws
import Idealize.ShloMosaic.Lib.ValueIdx
import Mathlib.Algebra.BigOperators.Group.Finset.Basic

noncomputable section

namespace Cert.Rows

open Idealize.ShloMosaic

/-- A row of 128 extended reals. -/
abbrev Row := Fin 128 → EReal

/-- A 128 × 128 matrix of extended reals, row index first. -/
abbrev Mat := Fin 128 → Fin 128 → EReal

/-- The float 128.0 as an extended real. -/
def c128 : EReal := Ideal.ofBits .f32 0x43000000#32

/-- The float nearest 1e-5 as an extended real. -/
def eps : EReal := Ideal.ofBits .f32 0x3727C5AC#32

/-- The mean of a row: its sum divided by 128. -/
def mean (v : Row) : EReal := Ideal.div (∑ j, v j) c128

/-- The variance of a row: the mean of the squared deviations from the mean. -/
def var (v : Row) : EReal := Ideal.div (∑ j, (v j - mean v) * (v j - mean v)) c128

/-- LayerNorm of a row `v` with scale row `w` and shift row `b`. -/
def ln (v w b : Row) : Row := fun k => (v k - mean v) * Ideal.rsqrt (var v + eps) * w k + b k

/-- The product of a row with a matrix: column `q` is the sum over `k` of `s k * W k q`. -/
def lin (s : Row) (W : Mat) : Row := fun q => ∑ k, s k * W k q

/-- A message row: the product with the matrix, clipped below at zero. -/
def act (s : Row) (W : Mat) : Row := fun q => max (lin s W q) 0

/-- A residual row, bracketed as the kernel adds it: `(x + a·W) + b`. -/
def res (x a : Row) (W : Mat) (b : Row) : Row := fun q => x q + lin a W q + b q

/-! ## Rows of arrays, and the layer's stages as whole arrays -/

open Idealize.ShloMosaic.ValueIdx

/-- An `n × 128` array of extended reals. -/
abbrev Arr (n : Nat) := Vec Ideal ⟨2, ![n, 128]⟩ .f32

/-- A vector of 128 extended reals, as an array. -/
abbrev V128 := Vec Ideal ⟨1, ![128]⟩ .f32

/-- Row `p` of an array. -/
def row {n : Nat} (x : Arr n) (p : Fin n) : Row := fun k => x (ix2 p k)

/-- A 128-vector as a row. -/
def vec (w : V128) : Row := fun k => w (ix1 k)

/-- A 128 × 128 array as a matrix. -/
def mat (W : Arr 128) : Mat := fun k q => W (ix2 k q)

/-- The row coordinate of an index of an `n × m` array. -/
def r0 {n m : Nat} (i : (⟨2, ![n, m]⟩ : Shape).Idx) : Fin n := ⟨(i 0).val, (i 0).isLt⟩

/-- The column coordinate of an index of an `n × m` array. -/
def c1 {n m : Nat} (i : (⟨2, ![n, m]⟩ : Shape).Idx) : Fin m := ⟨(i 1).val, (i 1).isLt⟩

theorem ix2_r0_c1 {n m : Nat} (i : (⟨2, ![n, m]⟩ : Shape).Idx) : ix2 (r0 i) (c1 i) = i :=
  (eq_ix2 i).symm

/-- The normalised array: LayerNorm of every row. -/
def lnA {n : Nat} (x : Arr n) (w b : V128) : Arr n := fun i => ln (row x (r0 i)) (vec w) (vec b) (c1 i)

/-- The bond messages: row `e` is the clipped product of `ln (xs e) + bx e + ba e` with `W`. -/
def msg1A {n : Nat} (xs bx ba : Arr n) (w b : V128) (W : Arr 128) : Arr n := fun i =>
  act (fun k => ln (row xs (r0 i)) (vec w) (vec b) k + row bx (r0 i) k + row ba (r0 i) k) (mat W) (c1 i)

/-- The pair messages: row `e` is the clipped product of `ln (xi e) + ln (xj e) + sc e` with `W`. -/
def msg2A {n : Nat} (xi xj sc : Arr n) (w b : V128) (W : Arr 128) : Arr n := fun i =>
  act (fun k => ln (row xi (r0 i)) (vec w) (vec b) k + ln (row xj (r0 i)) (vec w) (vec b) k + row sc (r0 i) k) (mat W) (c1 i)

/-- The residual update: row `p` is `(x p + agg p · W) + b`. -/
def resA {n : Nat} (agg x : Arr n) (W : Arr 128) (b : V128) : Arr n := fun i =>
  res (row x (r0 i)) (row agg (r0 i)) (mat W) (vec b) (c1 i)

/-- The reference brackets the residual as `x + (a·W + b)`: the same extended real, addition being associative. -/
theorem res_assoc (x a : Row) (W : Mat) (b : Row) (q : Fin 128) :
    x q + (lin a W q + b q) = res x a W b q := (add_assoc _ _ _).symm

end Cert.Rows

end
-- ==== Proof.KernelTerms.lean ====
/-
  The kernel program's result as a function of its argument arrays.

  Between its four regions the program does on the host exactly what the reference does: it splits the two index
  tables into their columns, wraps a negative index once by the table's length, gathers rows, and sums rows into
  their targets.  With the regions read as the array functions `Rows.msg1A`, `Rows.resA`, `Rows.msg2A`, `Rows.resA`
  the whole program is the composition written here: angle features summed onto bonds; bond messages of the
  gathered node rows, summed onto nodes; the residual update of the node table; pair messages of the two gathered
  rows of the updated table, summed onto nodes; the second residual update.
-/
import proofs.«424622_j16484084482419_3_alg».proof.KernelIdeal
import proofs.«424622_j16484084482419_3_alg».proof.Proof.Gen.KernelIdeal
import proofs.«424622_j16484084482419_3_alg».proof.Proof.Rows
import Idealize.ShloMosaic.PureOps.Ideal

noncomputable section

namespace Cert.KernelIdeal.Terms

open Cert.KernelIdeal Cert.KernelIdeal.Facts₀ Cert.KernelIdeal.Facts Cert.Rows
open Idealize.ShloMosaic Idealize.ShloMosaic.TcCoe

/-- Column 0 of a 400000 × 2 index table, as a vector. -/
def col0 (a : (⟨S400000x2, .i32⟩ : BufTy).Contents (Elt Ideal)) : (⟨S400000, .i32⟩ : BufTy).Contents (Elt Ideal) :=
  shapeCast _ (extractStridedSlice S400000x1 ![0, 0] a slices_S400000x2_S400000x1_0_0) shapeCasts_S400000x1_S400000

/-- Column 1 of a 400000 × 2 index table, as a vector. -/
def col1 (a : (⟨S400000x2, .i32⟩ : BufTy).Contents (Elt Ideal)) : (⟨S400000, .i32⟩ : BufTy).Contents (Elt Ideal) :=
  shapeCast _ (extractStridedSlice S400000x1 ![0, 1] a slices_S400000x2_S400000x1_0_1) shapeCasts_S400000x1_S400000

/-- The start indices of a row gather from a table of 100000 rows: a negative index has 100000 added, once. -/
def wrap (v : (⟨S400000, .i32⟩ : BufTy).Contents (Elt Ideal)) : (⟨S400000x1, .i32⟩ : BufTy).Contents (Elt Ideal) :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 100000#32))) v)

/-- The scatter indices of a segment sum: the index vector as a column. -/
def seg (v : (⟨S400000, .i32⟩ : BufTy).Contents (Elt Ideal)) : (⟨S400000x1, .i32⟩ : BufTy).Contents (Elt Ideal) :=
  broadcastInDim S400000x1 ![0] bcast_S400000_S400000x1_0 v

/-- The rows of a 100000-row table picked by start indices. -/
def gat (x : (⟨S100000x128, .f32⟩ : BufTy).Contents (Elt Ideal)) (i : (⟨S400000x1, .i32⟩ : BufTy).Contents (Elt Ideal)) :
    (⟨S400000x128, .f32⟩ : BufTy).Contents (Elt Ideal) :=
  Host.gather gather_S100000x128_S400000x1_S400000x128_1_0_n_n_0_1_1128 x i

/-- 400000 message rows summed into 100000 node rows, from zero. -/
def sct (i : (⟨S400000x1, .i32⟩ : BufTy).Contents (Elt Ideal)) (u : (⟨S400000x128, .f32⟩ : BufTy).Contents (Elt Ideal)) :
    (⟨S100000x128, .f32⟩ : BufTy).Contents (Elt Ideal) :=
  Host.scatterAdd (F := Ideal) scatter_S100000x128_S400000x1_S400000x128_1_0_0_1
    (broadcastInDim S100000x128 ![] bcast_S_S100000x128 (constant (F := Ideal) S_ .f32 0x00000000#32)) i u

/-- 800000 angle rows summed into 400000 bond rows, from zero. -/
def bang (a3 : (⟨S800000x128, .f32⟩ : BufTy).Contents (Elt Ideal)) (a17 : (⟨S800000, .i32⟩ : BufTy).Contents (Elt Ideal)) :
    (⟨S400000x128, .f32⟩ : BufTy).Contents (Elt Ideal) :=
  Host.scatterAdd (F := Ideal) scatter_S400000x128_S800000x1_S800000x128_1_0_0_1
    (broadcastInDim S400000x128 ![] bcast_S_S400000x128 (constant (F := Ideal) S_ .f32 0x00000000#32))
    (broadcastInDim S800000x1 ![0] bcast_S800000_S800000x1_0 a17) a3

variable (a0 : (⟨S100000x128, .f32⟩ : BufTy).Contents (Elt Ideal))
  (a1 a2 : (⟨S400000x128, .f32⟩ : BufTy).Contents (Elt Ideal))
  (a3 : (⟨S800000x128, .f32⟩ : BufTy).Contents (Elt Ideal))
  (a4 a5 a6 a8 : (⟨S128x128, .f32⟩ : BufTy).Contents (Elt Ideal))
  (a7 a9 a10 a11 a12 a13 : (⟨S128, .f32⟩ : BufTy).Contents (Elt Ideal))
  (a15 a16 : (⟨S400000x2, .i32⟩ : BufTy).Contents (Elt Ideal))
  (a17 : (⟨S800000, .i32⟩ : BufTy).Contents (Elt Ideal))

/-- The bond messages. -/
def msg : (⟨S400000x128, .f32⟩ : BufTy).Contents (Elt Ideal) :=
  msg1A (gat a0 (wrap (col0 a15))) a1 (bang a3 a17) a10 a11 a4

/-- The node table after the first sublayer. -/
def xnew : (⟨S100000x128, .f32⟩ : BufTy).Contents (Elt Ideal) :=
  resA (sct (seg (col1 a15)) (msg a0 a1 a3 a4 a10 a11 a15 a17)) a0 a6 a7

/-- The pair messages. -/
def msg2 : (⟨S400000x128, .f32⟩ : BufTy).Contents (Elt Ideal) :=
  msg2A (gat (xnew a0 a1 a3 a4 a6 a7 a10 a11 a15 a17) (wrap (col0 a16)))
    (gat (xnew a0 a1 a3 a4 a6 a7 a10 a11 a15 a17) (wrap (col1 a16))) a2 a12 a13 a5

/-- The program's result: the node table after the second sublayer. -/
def out : (⟨S100000x128, .f32⟩ : BufTy).Contents (Elt Ideal) :=
  resA (sct (seg (col0 a16)) (msg2 a0 a1 a2 a3 a4 a5 a6 a7 a10 a11 a12 a13 a15 a16 a17))
    (xnew a0 a1 a3 a4 a6 a7 a10 a11 a15 a17) a8 a9

end Cert.KernelIdeal.Terms

end
-- ==== Proof.Kept.lean ====
/-
  Buffers nothing writes between two boundaries of the program.

  The program's host stretches and regions write only their own results.  An argument array is therefore, at the
  boundary where a region reads it, as launched; and an index column, or the updated node table, computed by one
  stretch or region and read again later, is at the later boundary what it was when computed.  Each fact walks down
  the boundaries one at a time: across a host stretch because none of its operations writes the buffer, across a
  region because the buffer is none of the region's arrays.
-/
import proofs.«424622_j16484084482419_3_alg».proof.Proof.Gen.KernelIdeal.Frame
import Idealize.ShloMosaic.Lib.StableHlo.Run
import Idealize.ShloMosaic.PureOps.Ideal

set_option maxRecDepth 16384

noncomputable section

namespace Cert.KernelIdeal.Kept

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes is, after the stretch, what it was before it. -/
macro "host_keeps" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- `main_arg1` is as launched when boundary 1 is reached. -/
theorem W1_arg1 : W1 m ρ c (Proc.devRef .tc main_arg1) = m ((c : Thread nD τ).loc main_arg1) :=
  calc W1 m ρ c (Proc.devRef .tc main_arg1)
    _ = W0 m ρ c (Proc.devRef .tc main_arg1) := by
          show StableHlo.after hostOps0 (W0 m ρ c) (Proc.devRef .tc main_arg1) = _; host_keeps
    _ = m ((c : Thread nD τ).loc main_arg1) := rfl

/-- `main_arg10` is as launched when boundary 1 is reached. -/
theorem W1_arg10 : W1 m ρ c (Proc.devRef .tc main_arg10) = m ((c : Thread nD τ).loc main_arg10) :=
  calc W1 m ρ c (Proc.devRef .tc main_arg10)
    _ = W0 m ρ c (Proc.devRef .tc main_arg10) := by
          show StableHlo.after hostOps0 (W0 m ρ c) (Proc.devRef .tc main_arg10) = _; host_keeps
    _ = m ((c : Thread nD τ).loc main_arg10) := rfl

/-- `main_arg11` is as launched when boundary 1 is reached. -/
theorem W1_arg11 : W1 m ρ c (Proc.devRef .tc main_arg11) = m ((c : Thread nD τ).loc main_arg11) :=
  calc W1 m ρ c (Proc.devRef .tc main_arg11)
    _ = W0 m ρ c (Proc.devRef .tc main_arg11) := by
          show StableHlo.after hostOps0 (W0 m ρ c) (Proc.devRef .tc main_arg11) = _; host_keeps
    _ = m ((c : Thread nD τ).loc main_arg11) := rfl

/-- `main_arg4` is as launched when boundary 1 is reached. -/
theorem W1_arg4 : W1 m ρ c (Proc.devRef .tc main_arg4) = m ((c : Thread nD τ).loc main_arg4) :=
  calc W1 m ρ c (Proc.devRef .tc main_arg4)
    _ = W0 m ρ c (Proc.devRef .tc main_arg4) := by
          show StableHlo.after hostOps0 (W0 m ρ c) (Proc.devRef .tc main_arg4) = _; host_keeps
    _ = m ((c : Thread nD τ).loc main_arg4) := rfl

/-- `main_arg0` is as launched when boundary 3 is reached. -/
theorem W3_arg0 : W3 m ρ c (Proc.devRef .tc main_arg0) = m ((c : Thread nD τ).loc main_arg0) :=
  calc W3 m ρ c (Proc.devRef .tc main_arg0)
    _ = W2 m ρ c (Proc.devRef .tc main_arg0) := by
          show StableHlo.after hostOps1 (W2 m ρ c) (Proc.devRef .tc main_arg0) = _; host_keeps
    _ = W1 m ρ c (Proc.devRef .tc main_arg0) := W2_of_ne m ρ c main_arg0 (by decide)
    _ = W0 m ρ c (Proc.devRef .tc main_arg0) := by
          show StableHlo.after hostOps0 (W0 m ρ c) (Proc.devRef .tc main_arg0) = _; host_keeps
    _ = m ((c : Thread nD τ).loc main_arg0) := rfl

/-- `main_arg6` is as launched when boundary 3 is reached. -/
theorem W3_arg6 : W3 m ρ c (Proc.devRef .tc main_arg6) = m ((c : Thread nD τ).loc main_arg6) :=
  calc W3 m ρ c (Proc.devRef .tc main_arg6)
    _ = W2 m ρ c (Proc.devRef .tc main_arg6) := by
          show StableHlo.after hostOps1 (W2 m ρ c) (Proc.devRef .tc main_arg6) = _; host_keeps
    _ = W1 m ρ c (Proc.devRef .tc main_arg6) := W2_of_ne m ρ c main_arg6 (by decide)
    _ = W0 m ρ c (Proc.devRef .tc main_arg6) := by
          show StableHlo.after hostOps0 (W0 m ρ c) (Proc.devRef .tc main_arg6) = _; host_keeps
    _ = m ((c : Thread nD τ).loc main_arg6) := rfl

/-- `main_arg7` is as launched when boundary 3 is reached. -/
theorem W3_arg7 : W3 m ρ c (Proc.devRef .tc main_arg7) = m ((c : Thread nD τ).loc main_arg7) :=
  calc W3 m ρ c (Proc.devRef .tc main_arg7)
    _ = W2 m ρ c (Proc.devRef .tc main_arg7) := by
          show StableHlo.after hostOps1 (W2 m ρ c) (Proc.devRef .tc main_arg7) = _; host_keeps
    _ = W1 m ρ c (Proc.devRef .tc main_arg7) := W2_of_ne m ρ c main_arg7 (by decide)
    _ = W0 m ρ c (Proc.devRef .tc main_arg7) := by
          show StableHlo.after hostOps0 (W0 m ρ c) (Proc.devRef .tc main_arg7) = _; host_keeps
    _ = m ((c : Thread nD τ).loc main_arg7) := rfl

/-- `main_arg2` is as launched when boundary 5 is reached. -/
theorem W5_arg2 : W5 m ρ c (Proc.devRef .tc main_arg2) = m ((c : Thread nD τ).loc main_arg2) :=
  calc W5 m ρ c (Proc.devRef .tc main_arg2)
    _ = W4 m ρ c (Proc.devRef .tc main_arg2) := by
          show StableHlo.after hostOps2 (W4 m ρ c) (Proc.devRef .tc main_arg2) = _; host_keeps
    _ = W3 m ρ c (Proc.devRef .tc main_arg2) := W4_of_ne m ρ c main_arg2 (by decide)
    _ = W2 m ρ c (Proc.devRef .tc main_arg2) := by
          show StableHlo.after hostOps1 (W2 m ρ c) (Proc.devRef .tc main_arg2) = _; host_keeps
    _ = W1 m ρ c (Proc.devRef .tc main_arg2) := W2_of_ne m ρ c main_arg2 (by decide)
    _ = W0 m ρ c (Proc.devRef .tc main_arg2) := by
          show StableHlo.after hostOps0 (W0 m ρ c) (Proc.devRef .tc main_arg2) = _; host_keeps
    _ = m ((c : Thread nD τ).loc main_arg2) := rfl

/-- `main_arg12` is as launched when boundary 5 is reached. -/
theorem W5_arg12 : W5 m ρ c (Proc.devRef .tc main_arg12) = m ((c : Thread nD τ).loc main_arg12) :=
  calc W5 m ρ c (Proc.devRef .tc main_arg12)
    _ = W4 m ρ c (Proc.devRef .tc main_arg12) := by
          show StableHlo.after hostOps2 (W4 m ρ c) (Proc.devRef .tc main_arg12) = _; host_keeps
    _ = W3 m ρ c (Proc.devRef .tc main_arg12) := W4_of_ne m ρ c main_arg12 (by decide)
    _ = W2 m ρ c (Proc.devRef .tc main_arg12) := by
          show StableHlo.after hostOps1 (W2 m ρ c) (Proc.devRef .tc main_arg12) = _; host_keeps
    _ = W1 m ρ c (Proc.devRef .tc main_arg12) := W2_of_ne m ρ c main_arg12 (by decide)
    _ = W0 m ρ c (Proc.devRef .tc main_arg12) := by
          show StableHlo.after hostOps0 (W0 m ρ c) (Proc.devRef .tc main_arg12) = _; host_keeps
    _ = m ((c : Thread nD τ).loc main_arg12) := rfl

/-- `main_arg13` is as launched when boundary 5 is reached. -/
theorem W5_arg13 : W5 m ρ c (Proc.devRef .tc main_arg13) = m ((c : Thread nD τ).loc main_arg13) :=
  calc W5 m ρ c (Proc.devRef .tc main_arg13)
    _ = W4 m ρ c (Proc.devRef .tc main_arg13) := by
          show StableHlo.after hostOps2 (W4 m ρ c) (Proc.devRef .tc main_arg13) = _; host_keeps
    _ = W3 m ρ c (Proc.devRef .tc main_arg13) := W4_of_ne m ρ c main_arg13 (by decide)
    _ = W2 m ρ c (Proc.devRef .tc main_arg13) := by
          show StableHlo.after hostOps1 (W2 m ρ c) (Proc.devRef .tc main_arg13) = _; host_keeps
    _ = W1 m ρ c (Proc.devRef .tc main_arg13) := W2_of_ne m ρ c main_arg13 (by decide)
    _ = W0 m ρ c (Proc.devRef .tc main_arg13) := by
          show StableHlo.after hostOps0 (W0 m ρ c) (Proc.devRef .tc main_arg13) = _; host_keeps
    _ = m ((c : Thread nD τ).loc main_arg13) := rfl

/-- `main_arg5` is as launched when boundary 5 is reached. -/
theorem W5_arg5 : W5 m ρ c (Proc.devRef .tc main_arg5) = m ((c : Thread nD τ).loc main_arg5) :=
  calc W5 m ρ c (Proc.devRef .tc main_arg5)
    _ = W4 m ρ c (Proc.devRef .tc main_arg5) := by
          show StableHlo.after hostOps2 (W4 m ρ c) (Proc.devRef .tc main_arg5) = _; host_keeps
    _ = W3 m ρ c (Proc.devRef .tc main_arg5) := W4_of_ne m ρ c main_arg5 (by decide)
    _ = W2 m ρ c (Proc.devRef .tc main_arg5) := by
          show StableHlo.after hostOps1 (W2 m ρ c) (Proc.devRef .tc main_arg5) = _; host_keeps
    _ = W1 m ρ c (Proc.devRef .tc main_arg5) := W2_of_ne m ρ c main_arg5 (by decide)
    _ = W0 m ρ c (Proc.devRef .tc main_arg5) := by
          show StableHlo.after hostOps0 (W0 m ρ c) (Proc.devRef .tc main_arg5) = _; host_keeps
    _ = m ((c : Thread nD τ).loc main_arg5) := rfl

/-- `main_arg8` is as launched when boundary 7 is reached. -/
theorem W7_arg8 : W7 m ρ c (Proc.devRef .tc main_arg8) = m ((c : Thread nD τ).loc main_arg8) :=
  calc W7 m ρ c (Proc.devRef .tc main_arg8)
    _ = W6 m ρ c (Proc.devRef .tc main_arg8) := by
          show StableHlo.after hostOps3 (W6 m ρ c) (Proc.devRef .tc main_arg8) = _; host_keeps
    _ = W5 m ρ c (Proc.devRef .tc main_arg8) := W6_of_ne m ρ c main_arg8 (by decide)
    _ = W4 m ρ c (Proc.devRef .tc main_arg8) := by
          show StableHlo.after hostOps2 (W4 m ρ c) (Proc.devRef .tc main_arg8) = _; host_keeps
    _ = W3 m ρ c (Proc.devRef .tc main_arg8) := W4_of_ne m ρ c main_arg8 (by decide)
    _ = W2 m ρ c (Proc.devRef .tc main_arg8) := by
          show StableHlo.after hostOps1 (W2 m ρ c) (Proc.devRef .tc main_arg8) = _; host_keeps
    _ = W1 m ρ c (Proc.devRef .tc main_arg8) := W2_of_ne m ρ c main_arg8 (by decide)
    _ = W0 m ρ c (Proc.devRef .tc main_arg8) := by
          show StableHlo.after hostOps0 (W0 m ρ c) (Proc.devRef .tc main_arg8) = _; host_keeps
    _ = m ((c : Thread nD τ).loc main_arg8) := rfl

/-- `main_arg9` is as launched when boundary 7 is reached. -/
theorem W7_arg9 : W7 m ρ c (Proc.devRef .tc main_arg9) = m ((c : Thread nD τ).loc main_arg9) :=
  calc W7 m ρ c (Proc.devRef .tc main_arg9)
    _ = W6 m ρ c (Proc.devRef .tc main_arg9) := by
          show StableHlo.after hostOps3 (W6 m ρ c) (Proc.devRef .tc main_arg9) = _; host_keeps
    _ = W5 m ρ c (Proc.devRef .tc main_arg9) := W6_of_ne m ρ c main_arg9 (by decide)
    _ = W4 m ρ c (Proc.devRef .tc main_arg9) := by
          show StableHlo.after hostOps2 (W4 m ρ c) (Proc.devRef .tc main_arg9) = _; host_keeps
    _ = W3 m ρ c (Proc.devRef .tc main_arg9) := W4_of_ne m ρ c main_arg9 (by decide)
    _ = W2 m ρ c (Proc.devRef .tc main_arg9) := by
          show StableHlo.after hostOps1 (W2 m ρ c) (Proc.devRef .tc main_arg9) = _; host_keeps
    _ = W1 m ρ c (Proc.devRef .tc main_arg9) := W2_of_ne m ρ c main_arg9 (by decide)
    _ = W0 m ρ c (Proc.devRef .tc main_arg9) := by
          show StableHlo.after hostOps0 (W0 m ρ c) (Proc.devRef .tc main_arg9) = _; host_keeps
    _ = m ((c : Thread nD τ).loc main_arg9) := rfl

/-- `main_v3` is at boundary 2 what it was at boundary 1. -/
theorem W2_v3_eq_W1 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- `main_v5` is at boundary 4 what it was at boundary 1. -/
theorem W4_v5_eq_W1 : W4 m ρ c (Proc.devRef .tc main_v5) = W1 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := by
          show StableHlo.after hostOps1 (W2 m ρ c) (Proc.devRef .tc main_v5) = _; host_keeps
    _ = W1 m ρ c (Proc.devRef .tc main_v5) := W2_of_ne m ρ c main_v5 (by decide)

/-- `main_v7` is at boundary 4 what it was at boundary 1. -/
theorem W4_v7_eq_W1 : W4 m ρ c (Proc.devRef .tc main_v7) = W1 m ρ c (Proc.devRef .tc main_v7) :=
  calc W4 m ρ c (Proc.devRef .tc main_v7)
    _ = W3 m ρ c (Proc.devRef .tc main_v7) := W4_of_ne m ρ c main_v7 (by decide)
    _ = W2 m ρ c (Proc.devRef .tc main_v7) := by
          show StableHlo.after hostOps1 (W2 m ρ c) (Proc.devRef .tc main_v7) = _; host_keeps
    _ = W1 m ρ c (Proc.devRef .tc main_v7) := W2_of_ne m ρ c main_v7 (by decide)

/-- `main_v5` is at boundary 6 what it was at boundary 1. -/
theorem W6_v5_eq_W1 : W6 m ρ c (Proc.devRef .tc main_v5) = W1 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := by
          show StableHlo.after hostOps2 (W4 m ρ c) (Proc.devRef .tc main_v5) = _; host_keeps
    _ = W3 m ρ c (Proc.devRef .tc main_v5) := W4_of_ne m ρ c main_v5 (by decide)
    _ = W2 m ρ c (Proc.devRef .tc main_v5) := by
          show StableHlo.after hostOps1 (W2 m ρ c) (Proc.devRef .tc main_v5) = _; host_keeps
    _ = W1 m ρ c (Proc.devRef .tc main_v5) := W2_of_ne m ρ c main_v5 (by decide)

/-- `main_v22` is at boundary 7 what it was at boundary 4. -/
theorem W7_v22_eq_W4 : W7 m ρ c (Proc.devRef .tc main_v22) = W4 m ρ c (Proc.devRef .tc main_v22) :=
  calc W7 m ρ c (Proc.devRef .tc main_v22)
    _ = W6 m ρ c (Proc.devRef .tc main_v22) := by
          show StableHlo.after hostOps3 (W6 m ρ c) (Proc.devRef .tc main_v22) = _; host_keeps
    _ = W5 m ρ c (Proc.devRef .tc main_v22) := W6_of_ne m ρ c main_v22 (by decide)
    _ = W4 m ρ c (Proc.devRef .tc main_v22) := by
          show StableHlo.after hostOps2 (W4 m ρ c) (Proc.devRef .tc main_v22) = _; host_keeps

end Cert.KernelIdeal.Kept

end
-- ==== Proof.PayMsg.lean ====
/-
  The message kernels' block results at an index.

  Each grid point of the two message regions holds 8000 × 128 blocks of gathered rows and of per-edge features,
  the LayerNorm scale and shift rows and the 128 × 128 weight.  The body normalises each gathered row (mean and
  variance over the row's 128 entries, both quotients by the float 128; the variance shifted by the float 1e-5
  before the reciprocal square root), scales and shifts it column by column, adds the other blocks, multiplies by
  the weight on the matrix unit into a zero accumulator, and clips below at zero.
-/
import proofs.«424622_j16484084482419_3_alg».proof.Proof.Gen.KernelIdeal.Frame
import proofs.«424622_j16484084482419_3_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayM

open Cert.KernelIdeal Cert.KernelIdeal.Gen Cert.Rows
open Idealize.ShloMosaic Idealize.ShloMosaic.TcCoe Idealize.ShloMosaic.ValueIdx

/-- The all-zero offsets of a whole-block access, rank 2 and rank 1. -/
theorem off2 : (![0, 0] : Fin 2 → Nat) = fun _ => 0 := funext fun a => by fin_cases a <;> rfl
theorem off1 : (![0] : Fin 1 → Nat) = fun _ => 0 := funext fun a => by fin_cases a; rfl

/-! ## The 8000 × 128 by 128 × 128 product at an index -/

theorem lhsM_0 (i : S8000x128.Idx) (k : dot_S8000x128_S128x128_S8000x128_1_0_0_1_n_n.contr.Idx) :
    (dot_S8000x128_S128x128_S8000x128_1_0_0_1_n_n.lhsIdx i k 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhsM_1 (i : S8000x128.Idx) (k : dot_S8000x128_S128x128_S8000x128_1_0_0_1_n_n.contr.Idx) :
    (dot_S8000x128_S128x128_S8000x128_1_0_0_1_n_n.lhsIdx i k 1).val = (k ⟨0, by decide⟩).val :=
  dot_S8000x128_S128x128_S8000x128_1_0_0_1_n_n.lhsIdx_val_of_single rfl i k
theorem rhsM_0 (i : S8000x128.Idx) (k : dot_S8000x128_S128x128_S8000x128_1_0_0_1_n_n.contr.Idx) :
    (dot_S8000x128_S128x128_S8000x128_1_0_0_1_n_n.rhsIdx i k 0).val = (k ⟨0, by decide⟩).val :=
  dot_S8000x128_S128x128_S8000x128_1_0_0_1_n_n.rhsIdx_val_of_single rfl i k
theorem rhsM_1 (i : S8000x128.Idx) (k : dot_S8000x128_S128x128_S8000x128_1_0_0_1_n_n.contr.Idx) :
    (dot_S8000x128_S128x128_S8000x128_1_0_0_1_n_n.rhsIdx i k 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The block product into a zero accumulator at (p, q): the sum over k of `l (p, k) * r (k, q)`. -/
theorem matmulM_apply (l : FVec Ideal S8000x128 .f32) (r : FVec Ideal S128x128 .f32) (p : Fin 8000) (q : Fin 128) :
    matmul dot_S8000x128_S128x128_S8000x128_1_0_0_1_n_n none l r (constant S8000x128 .f32 0x00000000#32) (ix2 p q)
      = ∑ k : Fin 128, l (ix2 p k) * r (ix2 k q) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ => exact lhsM_0 _ _
    | ⟨1, _⟩ => exact (lhsM_1 _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (rhsM_0 _ _).trans hk
    | ⟨1, _⟩ => exact rhsM_1 _ _)
  rw [el, er]

/-! ## A row's sum, and the column forms that carry it back over the row -/

/-- The lane sum of an 8000 × 128 block at row `p`: the sum of the row's 128 entries. -/
theorem rowSum_apply (v : FVec Ideal S8000x128 .f32) (h : S8000x128.Reduces [1] S8000) (hφ : FKind.Formats .f32)
    (hacc : (0x00000000#32 : BitVec 32) = 0x00000000#32) (p : Fin 8000) :
    multiReduction (F := Ideal) .add [1] S8000 v 0x00000000#32 h hφ hacc (ix1 p) = ∑ k : Fin 128, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## LayerNorm of a block's rows -/

/-- A row's sum spread down a unit column and divided by the float 128, read at row `p`. -/
theorem quotCol_apply (v : FVec Ideal S8000x128 .f32) (h : S8000x128.Reduces [1] S8000) (hφ : FKind.Formats .f32)
    (hacc : (0x00000000#32 : BitVec 32) = 0x00000000#32) (hc : S8000.ShapeCasts S8000x1) (p : Fin 8000) (u : Fin 1) :
    divf (shapeCast S8000x1 (multiReduction (F := Ideal) .add [1] S8000 v 0x00000000#32 h hφ hacc) hc)
        (broadcast S8000x1 (FloatOps.ofBits .f32 0x43000000#32)) (ix2 p u)
      = Ideal.div (∑ k : Fin 128, v (ix2 p k)) c128 := by
  rw [divf_apply, broadcast_apply, shapeCast_a_a1_apply, rowSum_apply]
  rfl

/-- The scale-and-shift of a block by a mean column `m` and a variance column `s`, read at (p, k). -/
theorem normTree_apply (x : FVec Ideal S8000x128 .f32) (m s : FVec Ideal S8000x1 .f32) (w b : Vec Ideal S128 .f32)
    (hb : S8000x1.Broadcasts S8000x128) (hc : S128.ShapeCasts S1x128) (hr : S1x128.Broadcasts S8000x128)
    (p : Fin 8000) (k : Fin 128) :
    addf
        (mulf
          (mulf (subf x (broadcastTo S8000x128 m hb))
            (broadcastTo S8000x128 (rsqrt (addf s (broadcast S8000x1 (FloatOps.ofBits .f32 0x3727C5AC#32)))) hb))
          (broadcastTo S8000x128 (shapeCast S1x128 w hc) hr))
        (broadcastTo S8000x128 (shapeCast S1x128 b hc) hr) (ix2 p k)
      = (x (ix2 p k) - m (ix2 p (0 : Fin 1))) * Ideal.rsqrt (s (ix2 p (0 : Fin 1)) + eps) * w (ix1 k) + b (ix1 k) := by
  rw [addf_apply, mulf_apply, mulf_apply, subf_apply, broadcastTo_a1_ab_apply, broadcastTo_a1_ab_apply,
    broadcastTo_1b_ab_apply, broadcastTo_1b_ab_apply, shapeCast_a_1a_apply, shapeCast_a_1a_apply]
  rfl

/-- The LayerNorm operation tree of a block, read at (p, k): LayerNorm of row `p` at column `k`. -/
theorem lnBlock_apply (x : Vec Ideal S8000x128 .f32) (w b : Vec Ideal S128 .f32) (p : Fin 8000) (k : Fin 128) :
    k2_pay2 (F := Ideal) x w b (ix2 p k) = ln (row x p) (vec w) (vec b) k := by
  unfold k2_pay2
  rw [shapeCast_self, normTree_apply, quotCol_apply, quotCol_apply]
  simp only [mulf_apply, subf_apply, broadcastTo_a1_ab_apply]
  rw [quotCol_apply]
  rfl

/-! ## The two message bodies as LayerNorm blocks, a sum, a product and a clip -/

/-- Region 0's body: the LayerNorm block plus the two feature blocks, times the weight, clipped below at zero. -/
theorem k0_pay1_eq (v0 : Vec Ideal S8000x128 .f32) (v2 v3 : Vec Ideal S128 .f32) (v28 v30 : Vec Ideal S8000x128 .f32)
    (v33 : Vec Ideal S128x128 .f32) :
    k0_pay1 (F := Ideal) v0 v2 v3 v28 v30 v33
      = maximumf
          (matmul (φ₂ := .f32) dot_S8000x128_S128x128_S8000x128_1_0_0_1_n_n none
            (addf (addf (k2_pay2 v0 v2 v3) v28) (shapeCast S8000x128 v30 shapeCasts_S8000x128_S8000x128)) v33
            (constant S8000x128 .f32 0x00000000#32))
          (broadcast S8000x128 (FloatOps.ofBits .f32 0x00000000#32)) := rfl

/-- Region 2's body, its second LayerNorm assembled from the cast block, the mean column, the squared-deviation
    sum column and the 128 column: the two LayerNorm blocks plus the feature block, times the weight, clipped. -/
theorem k2_pay1_eq (a : FVec Ideal S8000x128 .f32) (v28 : Vec Ideal S8000x128 .f32) (v30 v31 : Vec Ideal S128 .f32)
    (v57 : Vec Ideal S8000x128 .f32) (v59 : Vec Ideal S128x128 .f32) :
    k2_pay1 (F := Ideal) a (k2_pay3 v28) v30 v31 (k2_pay4 v28) (k2_pay5 v28) k2_pay6 v57 v59
      = maximumf
          (matmul (φ₂ := .f32) dot_S8000x128_S128x128_S8000x128_1_0_0_1_n_n none
            (addf (addf a (k2_pay2 v28 v30 v31)) v57) v59
            (constant S8000x128 .f32 0x00000000#32))
          (broadcast S8000x128 (FloatOps.ofBits .f32 0x00000000#32)) := rfl

/-- Region 0's block result at (p, q): window 0 the gathered rows, window 1 the bond features, window 2 the
    aggregated angle features, windows 3 and 4 the LayerNorm scale and shift, window 5 the weight. -/
theorem out0_6_apply (x0 x1 x2 : Vec Ideal S8000x128 .f32) (x3 x4 : Vec Ideal S128 .f32) (x5 : Vec Ideal S128x128 .f32)
    (p : Fin 8000) (q : Fin 128) :
    out0_6 (F := Ideal) x0 x1 x2 x3 x4 x5 (ix2 p q)
      = act (fun k => ln (row x0 p) (vec x3) (vec x4) k + row x1 p k + row x2 p k) (mat x5) q := by
  unfold out0_6
  rw [View.canon_unit_zero off2]
  simp only [View.ld_unit_zero (S := S8000x128) off2, View.ld_unit_zero (S := S128x128) off2, View.ld_unit_zero (S := S128) off1]
  rw [k0_pay1_eq, maximumf_apply, broadcast_apply, matmulM_apply, Ideal.ofBits_def, Ideal.ofBits_zero_f32]
  unfold act lin
  refine congrArg (max · 0) (Finset.sum_congr rfl fun k _ => ?_)
  rw [addf_apply, addf_apply, shapeCast_self, lnBlock_apply]
  rfl

/-- Region 2's block result at (p, q): windows 0 and 1 the two gathered rows, window 2 the pair features,
    windows 3 and 4 the LayerNorm scale and shift, window 5 the weight. -/
theorem out2_6_apply (x0 x1 x2 : Vec Ideal S8000x128 .f32) (x3 x4 : Vec Ideal S128 .f32) (x5 : Vec Ideal S128x128 .f32)
    (p : Fin 8000) (q : Fin 128) :
    out2_6 (F := Ideal) x0 x1 x2 x3 x4 x5 (ix2 p q)
      = act (fun k => ln (row x0 p) (vec x3) (vec x4) k + ln (row x1 p) (vec x3) (vec x4) k + row x2 p k) (mat x5) q := by
  unfold out2_6
  rw [View.canon_unit_zero off2]
  simp only [View.ld_unit_zero (S := S8000x128) off2, View.ld_unit_zero (S := S128x128) off2, View.ld_unit_zero (S := S128) off1]
  rw [k2_pay1_eq, maximumf_apply, broadcast_apply, matmulM_apply, Ideal.ofBits_def, Ideal.ofBits_zero_f32]
  unfold act lin
  refine congrArg (max · 0) (Finset.sum_congr rfl fun k _ => ?_)
  rw [addf_apply, addf_apply, lnBlock_apply, lnBlock_apply]
  rfl

end Cert.KernelIdeal.PayM

end
-- ==== Proof.Blocks02.lean ====
/-
  The two message regions: from blocks to the whole result array.

  A message region walks 50 grid points; point `t` is handed rows `8000 t … 8000 t + 7999` of its three row-block
  arrays, the whole LayerNorm scale and shift and the whole weight, and writes back the same rows of the result.
  Its body's result at a row is the message row of that row, so every point writes its block of ONE array
  function, `Rows.msg1A` (region 0) or `Rows.msg2A` (region 2) of the arrays the region is handed; the blocks cover
  the result array, which therefore ends at that function.  Stated at any contents `V` of the buffers when the
  region is entered.
-/
import proofs.«424622_j16484084482419_3_alg».proof.Proof.Gen.KernelIdeal.Frame
import proofs.«424622_j16484084482419_3_alg».proof.Proof.Rows
import proofs.«424622_j16484084482419_3_alg».proof.Proof.PayMsg
import Idealize.ShloMosaic.Lib.Pipeline.Value
import Idealize.ShloMosaic.PureOps.Ideal

set_option maxRecDepth 16384

noncomputable section

namespace Cert.KernelIdeal.Blocks

open Cert.KernelIdeal Cert.KernelIdeal.Gen Cert.Rows
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 0 -/

/-- What region 0 leaves in its result array: the bond messages of the rows it is handed (window 0 the gathered
    rows, 1 the bond features, 2 the aggregated angle features, 3 and 4 the LayerNorm scale and shift, 5 the weight). -/
abbrev G0 (c : Dev nD) : Arr 400000 :=
  msg1A (V c main_v17) (V c main_arg1) (V c main_v10) (V c main_arg10) (V c main_arg11) (V c main_arg4)

/-- Region 0's index maps over its 50 grid points: the row-block windows (the three input blocks and the result) are
    at block row `t`, the scale, the shift and the weight at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Grid point `t` of region 0 writes back block `t` of `G0`: its input blocks are rows `8000 t … 8000 t + 7999` of the
    arrays (the scale, the shift and the weight whole), and the body's result at a row is the message row. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  obtain ⟨e00, e01, e10, e11, e20, e21, e30, e40, e50, e51, e60, e61⟩ := idx0 t
  funext j
  show out0_6 (iblk0 V c 0 t) (iblk0 V c 1 t) (iblk0 V c 2 t) (iblk0 V c 3 t) (iblk0 V c 4 t) (iblk0 V c 5 t) j = G0 V c (((cfg0.win 6).blk t).view.emb j)
  refine (congrArg (out0_6 (iblk0 V c 0 t) (iblk0 V c 1 t) (iblk0 V c 2 t) (iblk0 V c 3 t) (iblk0 V c 4 t) (iblk0 V c 5 t)) (eq_ix2 j)).trans ?_
  refine (PayM.out0_6_apply (iblk0 V c 0 t) (iblk0 V c 1 t) (iblk0 V c 2 t) (iblk0 V c 3 t) (iblk0 V c 4 t) (iblk0 V c 5 t) (j 0) (j 1)).trans ?_
  have hj0 : (j 0).val < 8000 := (j 0).isLt
  have hj1 : (j 1).val < 128 := (j 1).isLt
  have ht : t.val < 50 := lt_of_lt_of_eq t.isLt (show cfg0.N = 50 from N_0)
  have hrow : r0 (((cfg0.win 6).blk t).view.emb j) = ⟨t.val * 8000 + (j 0).val, by omega⟩ :=
    Fin.ext (by show win0_6.index t (0 : Fin 2) * 8000 + 1 * (j 0).val = t.val * 8000 + (j 0).val; rw [e60]; omega)
  have hcol : c1 (((cfg0.win 6).blk t).view.emb j) = j 1 :=
    Fin.ext (by show win0_6.index t (1 : Fin 2) * 128 + 1 * (j 1).val = (j 1).val; rw [e61]; omega)
  unfold G0 msg1A
  rw [hrow, hcol]
  have h0 : row (iblk0 V c 0 t) (j 0) = row (V c main_v17) ⟨t.val * 8000 + (j 0).val, by omega⟩ := funext fun k => by
    show V c main_v17 (((cfg0.win 0).blk t).view.emb (ix2 (j 0) k)) = V c main_v17 (ix2 _ k)
    refine congrArg _ (funext fun a => Fin.ext ?_)
    match a with
    | ⟨0, _⟩ => show win0_0.index t (0 : Fin 2) * 8000 + 1 * (j 0).val = t.val * 8000 + (j 0).val; rw [e00]; omega
    | ⟨1, _⟩ => show win0_0.index t (1 : Fin 2) * 128 + 1 * k.val = k.val; rw [e01]; omega
  have h1 : row (iblk0 V c 1 t) (j 0) = row (V c main_arg1) ⟨t.val * 8000 + (j 0).val, by omega⟩ := funext fun k => by
    show V c main_arg1 (((cfg0.win 1).blk t).view.emb (ix2 (j 0) k)) = V c main_arg1 (ix2 _ k)
    refine congrArg _ (funext fun a => Fin.ext ?_)
    match a with
    | ⟨0, _⟩ => show win0_1.index t (0 : Fin 2) * 8000 + 1 * (j 0).val = t.val * 8000 + (j 0).val; rw [e10]; omega
    | ⟨1, _⟩ => show win0_1.index t (1 : Fin 2) * 128 + 1 * k.val = k.val; rw [e11]; omega
  have h2 : row (iblk0 V c 2 t) (j 0) = row (V c main_v10) ⟨t.val * 8000 + (j 0).val, by omega⟩ := funext fun k => by
    show V c main_v10 (((cfg0.win 2).blk t).view.emb (ix2 (j 0) k)) = V c main_v10 (ix2 _ k)
    refine congrArg _ (funext fun a => Fin.ext ?_)
    match a with
    | ⟨0, _⟩ => show win0_2.index t (0 : Fin 2) * 8000 + 1 * (j 0).val = t.val * 8000 + (j 0).val; rw [e20]; omega
    | ⟨1, _⟩ => show win0_2.index t (1 : Fin 2) * 128 + 1 * k.val = k.val; rw [e21]; omega
  have h3 : vec (iblk0 V c 3 t) = vec (V c main_arg10) := funext fun k => by
    show V c main_arg10 (((cfg0.win 3).blk t).view.emb (ix1 k)) = V c main_arg10 (ix1 k)
    refine congrArg _ (funext fun a => Fin.ext ?_)
    match a with
    | ⟨0, _⟩ => show win0_3.index t (0 : Fin 1) * 128 + 1 * k.val = k.val; rw [e30]; omega
  have h4 : vec (iblk0 V c 4 t) = vec (V c main_arg11) := funext fun k => by
    show V c main_arg11 (((cfg0.win 4).blk t).view.emb (ix1 k)) = V c main_arg11 (ix1 k)
    refine congrArg _ (funext fun a => Fin.ext ?_)
    match a with
    | ⟨0, _⟩ => show win0_4.index t (0 : Fin 1) * 128 + 1 * k.val = k.val; rw [e40]; omega
  have h5 : mat (iblk0 V c 5 t) = mat (V c main_arg4) := funext fun k => funext fun q => by
    show V c main_arg4 (((cfg0.win 5).blk t).view.emb (ix2 k q)) = V c main_arg4 (ix2 k q)
    refine congrArg _ (funext fun a => Fin.ext ?_)
    match a with
    | ⟨0, _⟩ => show win0_5.index t (0 : Fin 2) * 128 + 1 * k.val = k.val; rw [e50]; omega
    | ⟨1, _⟩ => show win0_5.index t (1 : Fin 2) * 128 + 1 * q.val = q.val; rw [e51]; omega
  rw [h0, h1, h2, h3, h4, h5]

/-- Region 0's result array ends at `G0`. -/
theorem final0 (c : Dev nD) : (dat0 V c).arrAt 6 cfg0.N = G0 V c :=
  (dat0 V c).arrAt_eq_of_cover 6 (G0 V c) (fun t _ => flushed0 V c t) fun i => by
    have hi0 : (i 0).val < 400000 := (i 0).isLt
    have hi1 : (i 1).val < 128 := (i 1).isLt
    have hN : cfg0.N = 50 := N_0
    let t0 : Fin cfg0.N := ⟨(i 0).val / 8000, by rw [hN]; omega⟩
    obtain ⟨-, -, -, -, -, -, -, -, -, -, e60, e61⟩ := idx0 t0
    refine ⟨t0, flush0_6 t0, ?_⟩
    show i ∈ ((View.whole main_v18).slice (win0_6.rect t0)).set
    rw [View.set_slice_whole, Rect.mem_set_unit]
    intro a
    match a with
    | ⟨0, _⟩ =>
      show win0_6.index t0 (0 : Fin 2) * 8000 ≤ (i 0).val ∧ (i 0).val < win0_6.index t0 (0 : Fin 2) * 8000 + 8000
      rw [e60]; show (i 0).val / 8000 * 8000 ≤ (i 0).val ∧ (i 0).val < (i 0).val / 8000 * 8000 + 8000; omega
    | ⟨1, _⟩ =>
      show win0_6.index t0 (1 : Fin 2) * 128 ≤ (i 1).val ∧ (i 1).val < win0_6.index t0 (1 : Fin 2) * 128 + 128
      rw [e61]; omega

/-! ## Region 2 -/

/-- What region 2 leaves in its result array: the pair messages of the rows it is handed (windows 0 and 1 the two
    gathered rows, 2 the pair features, 3 and 4 the LayerNorm scale and shift, 5 the weight). -/
abbrev G2 (c : Dev nD) : Arr 400000 :=
  msg2A (V c main_v29) (V c main_v36) (V c main_arg2) (V c main_arg12) (V c main_arg13) (V c main_arg5)

/-- Region 2's index maps over its 50 grid points: the row-block windows (the three input blocks and the result) are
    at block row `t`, the scale, the shift and the weight at their one block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Grid point `t` of region 2 writes back block `t` of `G2`: its input blocks are rows `8000 t … 8000 t + 7999` of the
    arrays (the scale, the shift and the weight whole), and the body's result at a row is the message row. -/
theorem flushed2 (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  obtain ⟨e00, e01, e10, e11, e20, e21, e30, e40, e50, e51, e60, e61⟩ := idx2 t
  funext j
  show out2_6 (iblk2 V c 0 t) (iblk2 V c 1 t) (iblk2 V c 2 t) (iblk2 V c 3 t) (iblk2 V c 4 t) (iblk2 V c 5 t) j = G2 V c (((cfg2.win 6).blk t).view.emb j)
  refine (congrArg (out2_6 (iblk2 V c 0 t) (iblk2 V c 1 t) (iblk2 V c 2 t) (iblk2 V c 3 t) (iblk2 V c 4 t) (iblk2 V c 5 t)) (eq_ix2 j)).trans ?_
  refine (PayM.out2_6_apply (iblk2 V c 0 t) (iblk2 V c 1 t) (iblk2 V c 2 t) (iblk2 V c 3 t) (iblk2 V c 4 t) (iblk2 V c 5 t) (j 0) (j 1)).trans ?_
  have hj0 : (j 0).val < 8000 := (j 0).isLt
  have hj1 : (j 1).val < 128 := (j 1).isLt
  have ht : t.val < 50 := lt_of_lt_of_eq t.isLt (show cfg2.N = 50 from N_2)
  have hrow : r0 (((cfg2.win 6).blk t).view.emb j) = ⟨t.val * 8000 + (j 0).val, by omega⟩ :=
    Fin.ext (by show win2_6.index t (0 : Fin 2) * 8000 + 1 * (j 0).val = t.val * 8000 + (j 0).val; rw [e60]; omega)
  have hcol : c1 (((cfg2.win 6).blk t).view.emb j) = j 1 :=
    Fin.ext (by show win2_6.index t (1 : Fin 2) * 128 + 1 * (j 1).val = (j 1).val; rw [e61]; omega)
  unfold G2 msg2A
  rw [hrow, hcol]
  have h0 : row (iblk2 V c 0 t) (j 0) = row (V c main_v29) ⟨t.val * 8000 + (j 0).val, by omega⟩ := funext fun k => by
    show V c main_v29 (((cfg2.win 0).blk t).view.emb (ix2 (j 0) k)) = V c main_v29 (ix2 _ k)
    refine congrArg _ (funext fun a => Fin.ext ?_)
    match a with
    | ⟨0, _⟩ => show win2_0.index t (0 : Fin 2) * 8000 + 1 * (j 0).val = t.val * 8000 + (j 0).val; rw [e00]; omega
    | ⟨1, _⟩ => show win2_0.index t (1 : Fin 2) * 128 + 1 * k.val = k.val; rw [e01]; omega
  have h1 : row (iblk2 V c 1 t) (j 0) = row (V c main_v36) ⟨t.val * 8000 + (j 0).val, by omega⟩ := funext fun k => by
    show V c main_v36 (((cfg2.win 1).blk t).view.emb (ix2 (j 0) k)) = V c main_v36 (ix2 _ k)
    refine congrArg _ (funext fun a => Fin.ext ?_)
    match a with
    | ⟨0, _⟩ => show win2_1.index t (0 : Fin 2) * 8000 + 1 * (j 0).val = t.val * 8000 + (j 0).val; rw [e10]; omega
    | ⟨1, _⟩ => show win2_1.index t (1 : Fin 2) * 128 + 1 * k.val = k.val; rw [e11]; omega
  have h2 : row (iblk2 V c 2 t) (j 0) = row (V c main_arg2) ⟨t.val * 8000 + (j 0).val, by omega⟩ := funext fun k => by
    show V c main_arg2 (((cfg2.win 2).blk t).view.emb (ix2 (j 0) k)) = V c main_arg2 (ix2 _ k)
    refine congrArg _ (funext fun a => Fin.ext ?_)
    match a with
    | ⟨0, _⟩ => show win2_2.index t (0 : Fin 2) * 8000 + 1 * (j 0).val = t.val * 8000 + (j 0).val; rw [e20]; omega
    | ⟨1, _⟩ => show win2_2.index t (1 : Fin 2) * 128 + 1 * k.val = k.val; rw [e21]; omega
  have h3 : vec (iblk2 V c 3 t) = vec (V c main_arg12) := funext fun k => by
    show V c main_arg12 (((cfg2.win 3).blk t).view.emb (ix1 k)) = V c main_arg12 (ix1 k)
    refine congrArg _ (funext fun a => Fin.ext ?_)
    match a with
    | ⟨0, _⟩ => show win2_3.index t (0 : Fin 1) * 128 + 1 * k.val = k.val; rw [e30]; omega
  have h4 : vec (iblk2 V c 4 t) = vec (V c main_arg13) := funext fun k => by
    show V c main_arg13 (((cfg2.win 4).blk t).view.emb (ix1 k)) = V c main_arg13 (ix1 k)
    refine congrArg _ (funext fun a => Fin.ext ?_)
    match a with
    | ⟨0, _⟩ => show win2_4.index t (0 : Fin 1) * 128 + 1 * k.val = k.val; rw [e40]; omega
  have h5 : mat (iblk2 V c 5 t) = mat (V c main_arg5) := funext fun k => funext fun q => by
    show V c main_arg5 (((cfg2.win 5).blk t).view.emb (ix2 k q)) = V c main_arg5 (ix2 k q)
    refine congrArg _ (funext fun a => Fin.ext ?_)
    match a with
    | ⟨0, _⟩ => show win2_5.index t (0 : Fin 2) * 128 + 1 * k.val = k.val; rw [e50]; omega
    | ⟨1, _⟩ => show win2_5.index t (1 : Fin 2) * 128 + 1 * q.val = q.val; rw [e51]; omega
  rw [h0, h1, h2, h3, h4, h5]

/-- Region 2's result array ends at `G2`. -/
theorem final2 (c : Dev nD) : (dat2 V c).arrAt 6 cfg2.N = G2 V c :=
  (dat2 V c).arrAt_eq_of_cover 6 (G2 V c) (fun t _ => flushed2 V c t) fun i => by
    have hi0 : (i 0).val < 400000 := (i 0).isLt
    have hi1 : (i 1).val < 128 := (i 1).isLt
    have hN : cfg2.N = 50 := N_2
    let t0 : Fin cfg2.N := ⟨(i 0).val / 8000, by rw [hN]; omega⟩
    obtain ⟨-, -, -, -, -, -, -, -, -, -, e60, e61⟩ := idx2 t0
    refine ⟨t0, flush2_6 t0, ?_⟩
    show i ∈ ((View.whole main_v37).slice (win2_6.rect t0)).set
    rw [View.set_slice_whole, Rect.mem_set_unit]
    intro a
    match a with
    | ⟨0, _⟩ =>
      show win2_6.index t0 (0 : Fin 2) * 8000 ≤ (i 0).val ∧ (i 0).val < win2_6.index t0 (0 : Fin 2) * 8000 + 8000
      rw [e60]; show (i 0).val / 8000 * 8000 ≤ (i 0).val ∧ (i 0).val < (i 0).val / 8000 * 8000 + 8000; omega
    | ⟨1, _⟩ =>
      show win2_6.index t0 (1 : Fin 2) * 128 ≤ (i 1).val ∧ (i 1).val < win2_6.index t0 (1 : Fin 2) * 128 + 128
      rw [e61]; omega

end Cert.KernelIdeal.Blocks

end
-- ==== Proof.PayRes.lean ====
/-
  The residual kernel's block result at an index.

  Each grid point of the two residual regions holds a 10000 × 128 block of the aggregate, the same rows of the
  array being updated, the 128 × 128 weight and the bias.  The body multiplies the aggregate block by the weight
  on the matrix unit into a zero accumulator, adds the rows being updated and then the bias broadcast down the
  rows.  Read at (p, q), exactly: `(x p q + ∑ k, agg p k * W k q) + b q` — the residual row `Rows.res`.
-/
import proofs.«424622_j16484084482419_3_alg».proof.Proof.Gen.KernelIdeal.Frame
import proofs.«424622_j16484084482419_3_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Cert.Rows
open Idealize.ShloMosaic Idealize.ShloMosaic.TcCoe Idealize.ShloMosaic.ValueIdx

/-- The all-zero offsets of a whole-block access, rank 2 and rank 1. -/
theorem off2 : (![0, 0] : Fin 2 → Nat) = fun _ => 0 := funext fun a => by fin_cases a <;> rfl
theorem off1 : (![0] : Fin 1 → Nat) = fun _ => 0 := funext fun a => by fin_cases a; rfl

/-! ## The 10000 × 128 by 128 × 128 product at an index -/

theorem lhsR_0 (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsR_1 (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k
theorem rhsR_0 (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k
theorem rhsR_1 (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block product into a zero accumulator at (p, q): the sum over k of `l (p, k) * r (k, q)`. -/
theorem matmulR_apply (l : FVec Ideal S10000x128 .f32) (r : FVec Ideal S128x128 .f32) (p : Fin 10000) (q : Fin 128) :
    matmul dot_S10000x128_S128x128_S10000x128_1_0_0_1_n_n none l r (constant S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhsR_0 _ _
    | ⟨1, _⟩ => exact (lhsR_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhsR_0 _ _).trans hk
    | ⟨1, _⟩ => exact rhsR_1 _ _)
  rw [el, er]

/-! ## The two residual regions -/

/-- Region 1's block result at (p, q) is the residual row of row p: window 0 the aggregate, window 1 the rows
    updated, window 2 the weight, window 3 the bias. -/
theorem out1_4_apply (x0 x1 : Vec Ideal S10000x128 .f32) (x2 : Vec Ideal S128x128 .f32) (x3 : Vec Ideal S128 .f32)
    (p : Fin 10000) (q : Fin 128) :
    out1_4 (F := Ideal) x0 x1 x2 x3 (ix2 p q) = res (row x1 p) (row x0 p) (mat x2) (vec x3) q := by
  unfold out1_4
  rw [View.canon_unit_zero off2]
  simp only [View.ld_unit_zero (S := S10000x128) off2, View.ld_unit_zero (S := S128x128) off2, View.ld_unit_zero (S := S128) off1]
  unfold k1_pay1
  rw [addf_apply, addf_apply, shapeCast_self, matmulR_apply, broadcastTo_1b_ab_apply, shapeCast_a_1a_apply]
  rfl

/-- Region 3's block result at (p, q): the same residual row (its body casts the updated rows to their own shape first). -/
theorem out3_4_apply (x0 x1 : Vec Ideal S10000x128 .f32) (x2 : Vec Ideal S128x128 .f32) (x3 : Vec Ideal S128 .f32)
    (p : Fin 10000) (q : Fin 128) :
    out3_4 (F := Ideal) x0 x1 x2 x3 (ix2 p q) = res (row x1 p) (row x0 p) (mat x2) (vec x3) q := by
  unfold out3_4
  rw [View.canon_unit_zero off2]
  simp only [View.ld_unit_zero (S := S10000x128) off2, View.ld_unit_zero (S := S128x128) off2, View.ld_unit_zero (S := S128) off1]
  unfold k3_pay1
  rw [addf_apply, addf_apply, shapeCast_self, shapeCast_self, matmulR_apply, broadcastTo_1b_ab_apply, shapeCast_a_1a_apply]
  rfl

end Cert.KernelIdeal.Pay

end
-- ==== Proof.Blocks1.lean ====
/-
  The first residual region: from blocks to the whole result array.

  The region walks 10 grid points; point `t` is handed rows `10000 t … 10000 t + 9999` of the aggregate and of the
  array being updated, the whole weight and bias, and writes back the same rows of the result.  Its body's result at
  a row is the residual row of that row, so every point writes its block of ONE array function, the residual
  update `Rows.resA` of the arrays the region is handed; the blocks cover the result array, which therefore ends at
  that function.  Stated at any contents `V` of the buffers when the region is entered.
-/
import proofs.«424622_j16484084482419_3_alg».proof.Proof.Gen.KernelIdeal.Frame
import proofs.«424622_j16484084482419_3_alg».proof.Proof.Rows
import proofs.«424622_j16484084482419_3_alg».proof.Proof.PayRes
import Idealize.ShloMosaic.Lib.Pipeline.Value
import Idealize.ShloMosaic.PureOps.Ideal

set_option maxRecDepth 16384

noncomputable section

namespace Cert.KernelIdeal.Blocks

open Cert.KernelIdeal Cert.KernelIdeal.Gen Cert.Rows
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Region 1's index maps over its 10 grid points: the row-block windows (aggregate, rows updated, result) are at block
    row `t`, the weight and the bias at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What region 1 leaves in its result array: the residual update of the rows it is handed. -/
abbrev G1 (c : Dev nD) : Arr 100000 := resA (V c main_v21) (V c main_arg0) (V c main_arg6) (V c main_arg7)

/-- Grid point `t` of region 1 writes back block `t` of `G1`: its input blocks are rows `10000 t … 10000 t + 9999` of the
    arrays (the weight and the bias whole), and the body's result at a row is the residual row. -/
theorem flushed1 (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  obtain ⟨e00, e01, e10, e11, e20, e21, e30, e40, e41⟩ := idx1 t
  funext j
  show out1_4 (iblk1 V c 0 t) (iblk1 V c 1 t) (iblk1 V c 2 t) (iblk1 V c 3 t) j = G1 V c (((cfg1.win 4).blk t).view.emb j)
  refine (congrArg (out1_4 (iblk1 V c 0 t) (iblk1 V c 1 t) (iblk1 V c 2 t) (iblk1 V c 3 t)) (eq_ix2 j)).trans ?_
  refine (Pay.out1_4_apply (iblk1 V c 0 t) (iblk1 V c 1 t) (iblk1 V c 2 t) (iblk1 V c 3 t) (j 0) (j 1)).trans ?_
  have hj0 : (j 0).val < 10000 := (j 0).isLt
  have hj1 : (j 1).val < 128 := (j 1).isLt
  have ht : t.val < 10 := lt_of_lt_of_eq t.isLt (show cfg1.N = 10 from N_1)
  have hrow : r0 (((cfg1.win 4).blk t).view.emb j) = ⟨t.val * 10000 + (j 0).val, by omega⟩ :=
    Fin.ext (by show win1_4.index t (0 : Fin 2) * 10000 + 1 * (j 0).val = t.val * 10000 + (j 0).val; rw [e40]; omega)
  have hcol : c1 (((cfg1.win 4).blk t).view.emb j) = j 1 :=
    Fin.ext (by show win1_4.index t (1 : Fin 2) * 128 + 1 * (j 1).val = (j 1).val; rw [e41]; omega)
  unfold G1 resA
  rw [hrow, hcol]
  have h0 : row (iblk1 V c 0 t) (j 0) = row (V c main_v21) ⟨t.val * 10000 + (j 0).val, by omega⟩ := funext fun k => by
    show V c main_v21 (((cfg1.win 0).blk t).view.emb (ix2 (j 0) k)) = V c main_v21 (ix2 _ k)
    refine congrArg _ (funext fun a => Fin.ext ?_)
    match a with
    | ⟨0, _⟩ => show win1_0.index t (0 : Fin 2) * 10000 + 1 * (j 0).val = t.val * 10000 + (j 0).val; rw [e00]; omega
    | ⟨1, _⟩ => show win1_0.index t (1 : Fin 2) * 128 + 1 * k.val = k.val; rw [e01]; omega
  have h1 : row (iblk1 V c 1 t) (j 0) = row (V c main_arg0) ⟨t.val * 10000 + (j 0).val, by omega⟩ := funext fun k => by
    show V c main_arg0 (((cfg1.win 1).blk t).view.emb (ix2 (j 0) k)) = V c main_arg0 (ix2 _ k)
    refine congrArg _ (funext fun a => Fin.ext ?_)
    match a with
    | ⟨0, _⟩ => show win1_1.index t (0 : Fin 2) * 10000 + 1 * (j 0).val = t.val * 10000 + (j 0).val; rw [e10]; omega
    | ⟨1, _⟩ => show win1_1.index t (1 : Fin 2) * 128 + 1 * k.val = k.val; rw [e11]; omega
  have h2 : mat (iblk1 V c 2 t) = mat (V c main_arg6) := funext fun k => funext fun q => by
    show V c main_arg6 (((cfg1.win 2).blk t).view.emb (ix2 k q)) = V c main_arg6 (ix2 k q)
    refine congrArg _ (funext fun a => Fin.ext ?_)
    match a with
    | ⟨0, _⟩ => show win1_2.index t (0 : Fin 2) * 128 + 1 * k.val = k.val; rw [e20]; omega
    | ⟨1, _⟩ => show win1_2.index t (1 : Fin 2) * 128 + 1 * q.val = q.val; rw [e21]; omega
  have h3 : vec (iblk1 V c 3 t) = vec (V c main_arg7) := funext fun k => by
    show V c main_arg7 (((cfg1.win 3).blk t).view.emb (ix1 k)) = V c main_arg7 (ix1 k)
    refine congrArg _ (funext fun a => Fin.ext ?_)
    match a with
    | ⟨0, _⟩ => show win1_3.index t (0 : Fin 1) * 128 + 1 * k.val = k.val; rw [e30]; omega
  rw [h0, h1, h2, h3]

/-- So region 1's result array ends at `G1`: every index lies in the block of the point `row / 10000`. -/
theorem final1 (c : Dev nD) : (dat1 V c).arrAt 4 cfg1.N = G1 V c :=
  (dat1 V c).arrAt_eq_of_cover 4 (G1 V c) (fun t _ => flushed1 V c t) fun i => by
    have hi0 : (i 0).val < 100000 := (i 0).isLt
    have hi1 : (i 1).val < 128 := (i 1).isLt
    have hN : cfg1.N = 10 := N_1
    let t0 : Fin cfg1.N := ⟨(i 0).val / 10000, by rw [hN]; omega⟩
    obtain ⟨-, -, -, -, -, -, -, e40, e41⟩ := idx1 t0
    refine ⟨t0, flush1_4 t0, ?_⟩
    show i ∈ ((View.whole main_v22).slice (win1_4.rect t0)).set
    rw [View.set_slice_whole, Rect.mem_set_unit]
    intro a
    match a with
    | ⟨0, _⟩ =>
      show win1_4.index t0 (0 : Fin 2) * 10000 ≤ (i 0).val ∧ (i 0).val < win1_4.index t0 (0 : Fin 2) * 10000 + 10000
      rw [e40]; show (i 0).val / 10000 * 10000 ≤ (i 0).val ∧ (i 0).val < (i 0).val / 10000 * 10000 + 10000; omega
    | ⟨1, _⟩ =>
      show win1_4.index t0 (1 : Fin 2) * 128 ≤ (i 1).val ∧ (i 1).val < win1_4.index t0 (1 : Fin 2) * 128 + 128
      rw [e41]; omega

end Cert.KernelIdeal.Blocks

end
-- ==== Proof.Blocks3.lean ====
/-
  The second residual region: from blocks to the whole result array.

  The region walks 10 grid points; point `t` is handed rows `10000 t … 10000 t + 9999` of the aggregate and of the
  array being updated, the whole weight and bias, and writes back the same rows of the result.  Its body's result at
  a row is the residual row of that row, so every point writes its block of ONE array function, the residual
  update `Rows.resA` of the arrays the region is handed; the blocks cover the result array, which therefore ends at
  that function.  Stated at any contents `V` of the buffers when the region is entered.
-/
import proofs.«424622_j16484084482419_3_alg».proof.Proof.Gen.KernelIdeal.Frame
import proofs.«424622_j16484084482419_3_alg».proof.Proof.Rows
import proofs.«424622_j16484084482419_3_alg».proof.Proof.PayRes
import Idealize.ShloMosaic.Lib.Pipeline.Value
import Idealize.ShloMosaic.PureOps.Ideal

set_option maxRecDepth 16384

noncomputable section

namespace Cert.KernelIdeal.Blocks

open Cert.KernelIdeal Cert.KernelIdeal.Gen Cert.Rows
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Region 3's index maps over its 10 grid points: the row-block windows (aggregate, rows updated, result) are at block
    row `t`, the weight and the bias at their one block. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What region 3 leaves in its result array: the residual update of the rows it is handed. -/
abbrev G3 (c : Dev nD) : Arr 100000 := resA (V c main_v40) (V c main_v22) (V c main_arg8) (V c main_arg9)

/-- Grid point `t` of region 3 writes back block `t` of `G3`: its input blocks are rows `10000 t … 10000 t + 9999` of the
    arrays (the weight and the bias whole), and the body's result at a row is the residual row. -/
theorem flushed3 (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  obtain ⟨e00, e01, e10, e11, e20, e21, e30, e40, e41⟩ := idx3 t
  funext j
  show out3_4 (iblk3 V c 0 t) (iblk3 V c 1 t) (iblk3 V c 2 t) (iblk3 V c 3 t) j = G3 V c (((cfg3.win 4).blk t).view.emb j)
  refine (congrArg (out3_4 (iblk3 V c 0 t) (iblk3 V c 1 t) (iblk3 V c 2 t) (iblk3 V c 3 t)) (eq_ix2 j)).trans ?_
  refine (Pay.out3_4_apply (iblk3 V c 0 t) (iblk3 V c 1 t) (iblk3 V c 2 t) (iblk3 V c 3 t) (j 0) (j 1)).trans ?_
  have hj0 : (j 0).val < 10000 := (j 0).isLt
  have hj1 : (j 1).val < 128 := (j 1).isLt
  have ht : t.val < 10 := lt_of_lt_of_eq t.isLt (show cfg3.N = 10 from N_3)
  have hrow : r0 (((cfg3.win 4).blk t).view.emb j) = ⟨t.val * 10000 + (j 0).val, by omega⟩ :=
    Fin.ext (by show win3_4.index t (0 : Fin 2) * 10000 + 1 * (j 0).val = t.val * 10000 + (j 0).val; rw [e40]; omega)
  have hcol : c1 (((cfg3.win 4).blk t).view.emb j) = j 1 :=
    Fin.ext (by show win3_4.index t (1 : Fin 2) * 128 + 1 * (j 1).val = (j 1).val; rw [e41]; omega)
  unfold G3 resA
  rw [hrow, hcol]
  have h0 : row (iblk3 V c 0 t) (j 0) = row (V c main_v40) ⟨t.val * 10000 + (j 0).val, by omega⟩ := funext fun k => by
    show V c main_v40 (((cfg3.win 0).blk t).view.emb (ix2 (j 0) k)) = V c main_v40 (ix2 _ k)
    refine congrArg _ (funext fun a => Fin.ext ?_)
    match a with
    | ⟨0, _⟩ => show win3_0.index t (0 : Fin 2) * 10000 + 1 * (j 0).val = t.val * 10000 + (j 0).val; rw [e00]; omega
    | ⟨1, _⟩ => show win3_0.index t (1 : Fin 2) * 128 + 1 * k.val = k.val; rw [e01]; omega
  have h1 : row (iblk3 V c 1 t) (j 0) = row (V c main_v22) ⟨t.val * 10000 + (j 0).val, by omega⟩ := funext fun k => by
    show V c main_v22 (((cfg3.win 1).blk t).view.emb (ix2 (j 0) k)) = V c main_v22 (ix2 _ k)
    refine congrArg _ (funext fun a => Fin.ext ?_)
    match a with
    | ⟨0, _⟩ => show win3_1.index t (0 : Fin 2) * 10000 + 1 * (j 0).val = t.val * 10000 + (j 0).val; rw [e10]; omega
    | ⟨1, _⟩ => show win3_1.index t (1 : Fin 2) * 128 + 1 * k.val = k.val; rw [e11]; omega
  have h2 : mat (iblk3 V c 2 t) = mat (V c main_arg8) := funext fun k => funext fun q => by
    show V c main_arg8 (((cfg3.win 2).blk t).view.emb (ix2 k q)) = V c main_arg8 (ix2 k q)
    refine congrArg _ (funext fun a => Fin.ext ?_)
    match a with
    | ⟨0, _⟩ => show win3_2.index t (0 : Fin 2) * 128 + 1 * k.val = k.val; rw [e20]; omega
    | ⟨1, _⟩ => show win3_2.index t (1 : Fin 2) * 128 + 1 * q.val = q.val; rw [e21]; omega
  have h3 : vec (iblk3 V c 3 t) = vec (V c main_arg9) := funext fun k => by
    show V c main_arg9 (((cfg3.win 3).blk t).view.emb (ix1 k)) = V c main_arg9 (ix1 k)
    refine congrArg _ (funext fun a => Fin.ext ?_)
    match a with
    | ⟨0, _⟩ => show win3_3.index t (0 : Fin 1) * 128 + 1 * k.val = k.val; rw [e30]; omega
  rw [h0, h1, h2, h3]

/-- So region 3's result array ends at `G3`: every index lies in the block of the point `row / 10000`. -/
theorem final3 (c : Dev nD) : (dat3 V c).arrAt 4 cfg3.N = G3 V c :=
  (dat3 V c).arrAt_eq_of_cover 4 (G3 V c) (fun t _ => flushed3 V c t) fun i => by
    have hi0 : (i 0).val < 100000 := (i 0).isLt
    have hi1 : (i 1).val < 128 := (i 1).isLt
    have hN : cfg3.N = 10 := N_3
    let t0 : Fin cfg3.N := ⟨(i 0).val / 10000, by rw [hN]; omega⟩
    obtain ⟨-, -, -, -, -, -, -, e40, e41⟩ := idx3 t0
    refine ⟨t0, flush3_4 t0, ?_⟩
    show i ∈ ((View.whole main_v41).slice (win3_4.rect t0)).set
    rw [View.set_slice_whole, Rect.mem_set_unit]
    intro a
    match a with
    | ⟨0, _⟩ =>
      show win3_4.index t0 (0 : Fin 2) * 10000 ≤ (i 0).val ∧ (i 0).val < win3_4.index t0 (0 : Fin 2) * 10000 + 10000
      rw [e40]; show (i 0).val / 10000 * 10000 ≤ (i 0).val ∧ (i 0).val < (i 0).val / 10000 * 10000 + 10000; omega
    | ⟨1, _⟩ =>
      show win3_4.index t0 (1 : Fin 2) * 128 ≤ (i 1).val ∧ (i 1).val < win3_4.index t0 (1 : Fin 2) * 128 + 128
      rw [e41]; omega

end Cert.KernelIdeal.Blocks

end
-- ==== Proof.KernelValue.lean ====
/-
  The kernel program's result buffer, read back through the program.

  The generated frame names the contents of every buffer at each of the program's eight boundaries (after each host
  stretch and each region).  Walking them in order: the first stretch gathers the source rows, sums the angle
  features onto bonds and splits the index tables into columns; region 0 leaves the bond messages of what it is
  handed; the second stretch sums them onto nodes; region 1 leaves the updated node table; the third stretch
  gathers its rows twice; region 2 leaves the pair messages; the fourth stretch sums them onto nodes; region 3
  leaves the result.  Each host-written buffer is its operation's value of the contents at the boundary before;
  each region's result array is the region's array function of its entry contents; a buffer read later than it was
  written is unchanged in between.  Composed: the result buffer ends at `Terms.out` of the argument arrays.
-/
import proofs.«424622_j16484084482419_3_alg».proof.Proof.Gen.KernelIdeal.Frame
import proofs.«424622_j16484084482419_3_alg».proof.Proof.KernelTerms
import proofs.«424622_j16484084482419_3_alg».proof.Proof.Kept
import proofs.«424622_j16484084482419_3_alg».proof.Proof.Blocks02
import proofs.«424622_j16484084482419_3_alg».proof.Proof.Blocks1
import proofs.«424622_j16484084482419_3_alg».proof.Proof.Blocks3
import Idealize.ShloMosaic.Lib.Pipeline.Value
import Idealize.ShloMosaic.Lib.StableHlo.Run
import Idealize.ShloMosaic.PureOps.Ideal

set_option maxRecDepth 16384

noncomputable section

namespace Cert.KernelIdeal.Chain

open Cert.KernelIdeal Cert.KernelIdeal.Gen Cert.KernelIdeal.Terms Cert.KernelIdeal.Kept Cert.KernelIdeal.Blocks Cert.Rows
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 1: after the first host stretch -/

/-- The gathered source rows. -/
theorem W1_v17 : W1 m ρ c (Proc.devRef .tc main_v17)
    = gat (m ((c : Thread nD τ).loc main_arg0)) (wrap (col0 (m ((c : Thread nD τ).loc main_arg15)))) := by
  show StableHlo.after hostOps0 (W0 m ρ c) (Proc.devRef .tc main_v17) = _
  generalize hG : gat (m ((c : Thread nD τ).loc main_arg0)) (wrap (col0 (m ((c : Thread nD τ).loc main_arg15)))) = G
  after_results
  rw [← hG]
  rfl

/-- The angle features summed onto bonds. -/
theorem W1_v10 : W1 m ρ c (Proc.devRef .tc main_v10) = bang (m ((c : Thread nD τ).loc main_arg3)) (m ((c : Thread nD τ).loc main_arg17)) := by
  show StableHlo.after hostOps0 (W0 m ρ c) (Proc.devRef .tc main_v10) = _
  generalize hG : bang (m ((c : Thread nD τ).loc main_arg3)) (m ((c : Thread nD τ).loc main_arg17)) = G
  after_results
  rw [← hG]
  rfl

/-- The bond table's target column. -/
theorem W1_v3 : W1 m ρ c (Proc.devRef .tc main_v3) = col1 (m ((c : Thread nD τ).loc main_arg15)) := by
  show StableHlo.after hostOps0 (W0 m ρ c) (Proc.devRef .tc main_v3) = _
  generalize hG : col1 (m ((c : Thread nD τ).loc main_arg15)) = G
  after_results
  rw [← hG]
  rfl

/-- The pair table's first column. -/
theorem W1_v5 : W1 m ρ c (Proc.devRef .tc main_v5) = col0 (m ((c : Thread nD τ).loc main_arg16)) := by
  show StableHlo.after hostOps0 (W0 m ρ c) (Proc.devRef .tc main_v5) = _
  generalize hG : col0 (m ((c : Thread nD τ).loc main_arg16)) = G
  after_results
  rw [← hG]
  rfl

/-- The pair table's second column. -/
theorem W1_v7 : W1 m ρ c (Proc.devRef .tc main_v7) = col1 (m ((c : Thread nD τ).loc main_arg16)) := by
  show StableHlo.after hostOps0 (W0 m ρ c) (Proc.devRef .tc main_v7) = _
  generalize hG : col1 (m ((c : Thread nD τ).loc main_arg16)) = G
  after_results
  rw [← hG]
  rfl

/-! ## Boundary 2: region 0 leaves the bond messages -/

theorem W2_v18 : W2 m ρ c (Proc.devRef .tc main_v18)
    = msg (m ((c : Thread nD τ).loc main_arg0)) (m ((c : Thread nD τ).loc main_arg1)) (m ((c : Thread nD τ).loc main_arg3)) (m ((c : Thread nD τ).loc main_arg4)) (m ((c : Thread nD τ).loc main_arg10)) (m ((c : Thread nD τ).loc main_arg11)) (m ((c : Thread nD τ).loc main_arg15)) (m ((c : Thread nD τ).loc main_arg17)) := by
  refine (W2_arr m ρ c 6).trans ((final0 (V1 m ρ) c).trans ?_)
  show msg1A (W1 m ρ c (Proc.devRef .tc main_v17)) (W1 m ρ c (Proc.devRef .tc main_arg1)) (W1 m ρ c (Proc.devRef .tc main_v10))
      (W1 m ρ c (Proc.devRef .tc main_arg10)) (W1 m ρ c (Proc.devRef .tc main_arg11)) (W1 m ρ c (Proc.devRef .tc main_arg4)) = _
  rw [W1_v17, W1_arg1, W1_v10, W1_arg10, W1_arg11, W1_arg4]
  rfl

/-! ## Boundary 3: the bond messages summed onto nodes -/

theorem W3_v21 : W3 m ρ c (Proc.devRef .tc main_v21)
    = sct (seg (col1 (m ((c : Thread nD τ).loc main_arg15)))) (msg (m ((c : Thread nD τ).loc main_arg0)) (m ((c : Thread nD τ).loc main_arg1)) (m ((c : Thread nD τ).loc main_arg3)) (m ((c : Thread nD τ).loc main_arg4)) (m ((c : Thread nD τ).loc main_arg10)) (m ((c : Thread nD τ).loc main_arg11)) (m ((c : Thread nD τ).loc main_arg15)) (m ((c : Thread nD τ).loc main_arg17))) := by
  show StableHlo.after hostOps1 (W2 m ρ c) (Proc.devRef .tc main_v21) = _
  generalize hG : sct (seg (col1 (m ((c : Thread nD τ).loc main_arg15)))) (msg (m ((c : Thread nD τ).loc main_arg0)) (m ((c : Thread nD τ).loc main_arg1)) (m ((c : Thread nD τ).loc main_arg3)) (m ((c : Thread nD τ).loc main_arg4)) (m ((c : Thread nD τ).loc main_arg10)) (m ((c : Thread nD τ).loc main_arg11)) (m ((c : Thread nD τ).loc main_arg15)) (m ((c : Thread nD τ).loc main_arg17))) = G
  after_results
  rw [W2_v3_eq_W1, W1_v3, W2_v18, ← hG]
  rfl

/-! ## Boundary 4: region 1 leaves the updated node table -/

theorem W4_v22 : W4 m ρ c (Proc.devRef .tc main_v22) = xnew (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg15)) (m ((c : Thread nD τ).loc main_arg17)) := by
  refine (W4_arr m ρ c 4).trans ((final1 (V3 m ρ) c).trans ?_)
  show resA (W3 m ρ c (Proc.devRef .tc main_v21)) (W3 m ρ c (Proc.devRef .tc main_arg0)) (W3 m ρ c (Proc.devRef .tc main_arg6))
      (W3 m ρ c (Proc.devRef .tc main_arg7)) = _
  rw [W3_v21, W3_arg0, W3_arg6, W3_arg7]
  rfl

/-! ## Boundary 5: the updated table's rows gathered twice -/

theorem W5_v29 : W5 m ρ c (Proc.devRef .tc main_v29) = gat (xnew (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg15)) (m ((c : Thread nD τ).loc main_arg17))) (wrap (col0 (m ((c : Thread nD τ).loc main_arg16)))) := by
  show StableHlo.after hostOps2 (W4 m ρ c) (Proc.devRef .tc main_v29) = _
  generalize hG : gat (xnew (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg15)) (m ((c : Thread nD τ).loc main_arg17))) (wrap (col0 (m ((c : Thread nD τ).loc main_arg16)))) = G
  after_results
  rw [W4_v22, W4_v5_eq_W1, W1_v5, ← hG]
  rfl

set_option maxHeartbeats 4000000 in  -- the stretch's last operation: the reading walks all nineteen
theorem W5_v36 : W5 m ρ c (Proc.devRef .tc main_v36) = gat (xnew (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg15)) (m ((c : Thread nD τ).loc main_arg17))) (wrap (col1 (m ((c : Thread nD τ).loc main_arg16)))) := by
  show StableHlo.after hostOps2 (W4 m ρ c) (Proc.devRef .tc main_v36) = _
  generalize hG : gat (xnew (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg15)) (m ((c : Thread nD τ).loc main_arg17))) (wrap (col1 (m ((c : Thread nD τ).loc main_arg16)))) = G
  after_results
  rw [W4_v22, W4_v7_eq_W1, W1_v7, ← hG]
  rfl

/-! ## Boundary 6: region 2 leaves the pair messages -/

theorem W6_v37 : W6 m ρ c (Proc.devRef .tc main_v37) = msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg15)) (m ((c : Thread nD τ).loc main_arg16)) (m ((c : Thread nD τ).loc main_arg17)) := by
  refine (W6_arr m ρ c 6).trans ((final2 (V5 m ρ) c).trans ?_)
  show msg2A (W5 m ρ c (Proc.devRef .tc main_v29)) (W5 m ρ c (Proc.devRef .tc main_v36)) (W5 m ρ c (Proc.devRef .tc main_arg2))
      (W5 m ρ c (Proc.devRef .tc main_arg12)) (W5 m ρ c (Proc.devRef .tc main_arg13)) (W5 m ρ c (Proc.devRef .tc main_arg5)) = _
  rw [W5_v29, W5_v36, W5_arg2, W5_arg12, W5_arg13, W5_arg5]
  rfl

/-! ## Boundary 7: the pair messages summed onto nodes -/

theorem W7_v40 : W7 m ρ c (Proc.devRef .tc main_v40)
    = sct (seg (col0 (m ((c : Thread nD τ).loc main_arg16)))) (msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg15)) (m ((c : Thread nD τ).loc main_arg16)) (m ((c : Thread nD τ).loc main_arg17))) := by
  show StableHlo.after hostOps3 (W6 m ρ c) (Proc.devRef .tc main_v40) = _
  generalize hG : sct (seg (col0 (m ((c : Thread nD τ).loc main_arg16)))) (msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg15)) (m ((c : Thread nD τ).loc main_arg16)) (m ((c : Thread nD τ).loc main_arg17))) = G
  after_results
  rw [W6_v5_eq_W1, W1_v5, W6_v37, ← hG]
  rfl

/-! ## Boundary 8: region 3 leaves the result -/

/-- The result buffer ends at the program's value of the argument arrays. -/
theorem W8_v41 : W8 m ρ c (Proc.devRef .tc main_v41) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15)) (m ((c : Thread nD τ).loc main_arg16)) (m ((c : Thread nD τ).loc main_arg17)) := by
  refine (W8_arr m ρ c 4).trans ((final3 (V7 m ρ) c).trans ?_)
  show resA (W7 m ρ c (Proc.devRef .tc main_v40)) (W7 m ρ c (Proc.devRef .tc main_v22)) (W7 m ρ c (Proc.devRef .tc main_arg8))
      (W7 m ρ c (Proc.devRef .tc main_arg9)) = _
  rw [W7_v40, W7_v22_eq_W4, W4_v22, W7_arg8, W7_arg9]
  rfl

end Cert.KernelIdeal.Chain

end
-- ==== Proof.Stages.lean ====
/-
  The layer's stages as whole arrays, in the two forms the programs produce them.

  The kernel normalises the rows it is handed inside the message stage (`Rows.msg1A`, `Rows.msg2A`); the
  reference normalises the whole table first and hands normalised rows on, so its message stage is the
  clipped product of a sum of three arrays (`actA`).  The two agree because the normalised array's row is
  the normalisation of the row.  The reference's residual is bracketed `x + (a·W + b)` (`resRefA`), the
  kernel's `(x + a·W) + b` (`Rows.resA`): one array, addition of extended reals being associative.
-/
import proofs.«424622_j16484084482419_3_alg».proof.Proof.Rows

noncomputable section

namespace Cert.Rows

open Idealize.ShloMosaic Idealize.ShloMosaic.ValueIdx

/-- The clipped product with `W` of the row-wise sum `(h + a) + b` of three arrays. -/
def actA {n : Nat} (h a b : Arr n) (W : Arr 128) : Arr n := fun i =>
  act (fun k => row h (r0 i) k + row a (r0 i) k + row b (r0 i) k) (mat W) (c1 i)

/-- The residual update as the reference brackets it: `x + (agg·W + b)`. -/
def resRefA {n : Nat} (agg x : Arr n) (W : Arr 128) (b : V128) : Arr n := fun i =>
  x i + (lin (row agg (r0 i)) (mat W) (c1 i) + vec b (c1 i))

/-- A row of the normalised array is the normalisation of the row. -/
theorem row_lnA {n : Nat} (x : Arr n) (w b : V128) (p : Fin n) : row (lnA x w b) p = ln (row x p) (vec w) (vec b) :=
  funext fun _ => rfl

/-- Normalising inside the message stage, or before it: the same bond messages. -/
theorem msg1A_eq {n : Nat} (xs bx ba : Arr n) (w b : V128) (W : Arr 128) :
    msg1A xs bx ba w b W = actA (lnA xs w b) bx ba W := by
  funext i
  unfold msg1A actA
  rw [row_lnA]

/-- Normalising inside the message stage, or before it: the same pair messages. -/
theorem msg2A_eq {n : Nat} (xi xj sc : Arr n) (w b : V128) (W : Arr 128) :
    msg2A xi xj sc w b W = actA (lnA xi w b) (lnA xj w b) sc W := by
  funext i
  unfold msg2A actA
  rw [row_lnA, row_lnA]

/-- The two bracketings of the residual are one array. -/
theorem resRefA_eq {n : Nat} (agg x : Arr n) (W : Arr 128) (b : V128) : resRefA agg x W b = resA agg x W b := by
  funext i
  unfold resRefA resA
  rw [← res_assoc]
  show x i + _ = x (ix2 (r0 i) (c1 i)) + _
  rw [ix2_r0_c1]

end Cert.Rows

end
-- ==== Proof.RefStages.lean ====
/-
  The reference's stages as the layer's whole-array functions.

  The reference normalises the whole node table (mean and variance of each row over its 128 entries, both
  quotients by the float 128; the variance shifted by the float 1e-5 before the reciprocal square root; scale and
  shift column by column), gathers normalised rows, adds the per-edge features, multiplies by the weight, clips
  below at zero, sums the messages into their target rows and adds the linear update to the table — twice.
  Each dense stage is read here, index by index, as the matching function of `Rows`; the gathers and the
  scatter-adds stay as the operations they are.
-/
import proofs.«424622_j16484084482419_3_alg».proof.Proof.Gen.ReferenceIdeal.Run
import proofs.«424622_j16484084482419_3_alg».proof.Proof.Gen.ReferenceIdeal.Read
import proofs.«424622_j16484084482419_3_alg».proof.Proof.Stages

noncomputable section

namespace Cert.ReferenceIdeal.Stages

open Cert.ReferenceIdeal Cert.ReferenceIdeal.Read Cert.Rows
open Idealize.ShloMosaic Idealize.ShloMosaic.TcCoe Idealize.ShloMosaic.ValueIdx

variable (x0 : (⟨S100000x128, .f32⟩ : BufTy).Contents (Elt Ideal))
  (x1 x2 : (⟨S400000x128, .f32⟩ : BufTy).Contents (Elt Ideal))
  (x3 : (⟨S800000x128, .f32⟩ : BufTy).Contents (Elt Ideal))
  (x4 x5 x6 x8 : (⟨S128x128, .f32⟩ : BufTy).Contents (Elt Ideal))
  (x7 x9 x10 x11 x12 x13 : (⟨S128, .f32⟩ : BufTy).Contents (Elt Ideal))
  (x15 x16 : (⟨S400000x2, .i32⟩ : BufTy).Contents (Elt Ideal))
  (x17 : (⟨S800000, .i32⟩ : BufTy).Contents (Elt Ideal))

/-! ## The statistics of a row, read from the reference's column stages

The reference keeps each row's mean and variance in a column (one entry per row); read at the entry of a row, they
are the mean and the variance of that row of the table. -/

/-- The column of means, read at an entry of row `r0 j`: the mean of that row. -/
theorem mean_read (j : S100000x1.Idx) : val_main_v3 (F := Ideal) x0 j = mean (row x0 (r0 j)) := by
  rw [val_main_v3_apply, val_main_v1_apply, val_main_v2_apply, val_main_cst_0_apply, val_main_v0_apply,
    val_main_cst_apply]
  simp only [Ideal.hostDivf_def, Ideal.ofBits_def, Ideal.ofBits_zero_f32, zero_add]
  refine congrArg (fun s => Ideal.div s c128) (Finset.sum_congr rfl fun k _ => congrArg x0 ?_)
  funext a
  exact Fin.ext (by match a with | ⟨0, _⟩ => rfl | ⟨1, _⟩ => rfl)

/-- The column of variances, read at an entry of row `r0 j`: the variance of that row. -/
theorem var_read (j : S100000x1.Idx) : val_main_v10 (F := Ideal) x0 j = var (row x0 (r0 j)) := by
  rw [val_main_v10_apply, val_main_v8_apply, val_main_v9_apply, val_main_cst_2_apply, val_main_v7_apply,
    val_main_cst_1_apply]
  have hk : ∀ k : Fin 128, val_main_v6 (F := Ideal) x0 (idx_main_v7 (idx_main_v8 j) k)
      = (row x0 (r0 j) k - mean (row x0 (r0 j))) * (row x0 (r0 j) k - mean (row x0 (r0 j))) := by
    intro k
    rw [val_main_v6_apply, val_main_v5_apply, val_main_v4_apply, mean_read]
    have hx : idx_main_v7 (idx_main_v8 j) k = ix2 (r0 j) k :=
      funext fun a => Fin.ext (by match a with | ⟨0, _⟩ => rfl | ⟨1, _⟩ => rfl)
    rw [hx]
    rfl
  simp only [hk, Ideal.hostDivf_def, Ideal.ofBits_def, Ideal.ofBits_zero_f32, zero_add]
  rfl

/-- The first normalised table is LayerNorm of every row of the node table. -/
theorem ln1 : val_main_v23 (F := Ideal) x0 x10 x11 = lnA x0 x10 x11 := by
  funext i
  rw [val_main_v23_apply, val_main_v20_apply, val_main_v22_apply, val_main_v21_apply, val_main_v19_apply,
    val_main_v18_apply, val_main_v17_apply, val_main_v16_apply, val_main_v15_apply, val_main_v14_apply,
    val_main_v13_apply, val_main_cst_3_apply, val_main_v12_apply, val_main_v11_apply, mean_read, var_read]
  have hw : idx_main_v18 (idx_main_v19 i) = ix1 (c1 i) :=
    funext fun a => Fin.ext (by match a with | ⟨0, _⟩ => rfl)
  have hb : idx_main_v21 (idx_main_v22 i) = ix1 (c1 i) :=
    funext fun a => Fin.ext (by match a with | ⟨0, _⟩ => rfl)
  have hi : x0 i = row x0 (r0 i) (c1 i) := congrArg x0 (ix2_r0_c1 i).symm
  rw [hw, hb, hi]
  rfl

/-- The bond messages: the clipped product of (gathered normalised rows + bond features) + aggregated angle
    features with the bond weight. -/
theorem msg1 : val_main_v41 (F := Ideal) x0 x1 x3 x4 x10 x11 x15 x17
    = actA (val_main_v37 (F := Ideal) x0 x10 x11 x15) x1 (val_main_v26 (F := Ideal) x3 x17) x4 := by
  funext i
  rw [val_main_v41_apply, val_main_call0_v0_apply, val_main_call0_cst_apply, val_main_v40_apply]
  simp only [val_main_v39_apply, val_main_v38_apply]
  generalize val_main_v37 (F := Ideal) x0 x10 x11 x15 = g
  generalize val_main_v26 (F := Ideal) x3 x17 = s
  simp only [Ideal.maximumf_def, Ideal.addf_def, Ideal.ofBits_def, Ideal.ofBits_zero_f32]
  refine congrArg (fun t => max t (0 : EReal)) (Finset.sum_congr rfl fun k _ => ?_)
  have hl : lidx_main_v40 i k = ix2 (r0 i) k :=
    funext fun a => Fin.ext (by match a with | ⟨0, _⟩ => rfl | ⟨1, _⟩ => rfl)
  have hr : ridx_main_v40 i k = ix2 k (c1 i) :=
    funext fun a => Fin.ext (by match a with | ⟨0, _⟩ => rfl | ⟨1, _⟩ => rfl)
  rw [hl, hr]
  rfl

/-- The first residual update of the node table, bracketed `x + (agg·W + b)`. -/
theorem res1 : val_main_v49 (F := Ideal) x0 x1 x3 x4 x6 x7 x10 x11 x15 x17
    = resRefA (val_main_v44 (F := Ideal) x0 x1 x3 x4 x10 x11 x15 x17) x0 x6 x7 := by
  funext i
  rw [val_main_v49_apply, val_main_v48_apply, val_main_v47_apply, val_main_v46_apply, val_main_v45_apply]
  generalize val_main_v44 (F := Ideal) x0 x1 x3 x4 x10 x11 x15 x17 = g
  have hb : idx_main_v46 (idx_main_v47 i) = ix1 (c1 i) :=
    funext fun a => Fin.ext (by match a with | ⟨0, _⟩ => rfl)
  rw [hb]
  simp only [Ideal.addf_def]
  refine congrArg (fun t => x0 i + (t + x7 (ix1 (c1 i)))) (Finset.sum_congr rfl fun k _ => ?_)
  have hl : lidx_main_v45 i k = ix2 (r0 i) k :=
    funext fun a => Fin.ext (by match a with | ⟨0, _⟩ => rfl | ⟨1, _⟩ => rfl)
  have hr : ridx_main_v45 i k = ix2 k (c1 i) :=
    funext fun a => Fin.ext (by match a with | ⟨0, _⟩ => rfl | ⟨1, _⟩ => rfl)
  rw [hl, hr]
  rfl

/-- The second normalised table is LayerNorm of every row of the updated table: the reference applies to the
    updated table the very operations it applied to the node table, with the second scale and shift. -/
theorem ln2 : val_main_v73 (F := Ideal) x0 x1 x3 x4 x6 x7 x10 x11 x12 x13 x15 x17
    = lnA (val_main_v49 (F := Ideal) x0 x1 x3 x4 x6 x7 x10 x11 x15 x17) x12 x13 :=
  ln1 (val_main_v49 (F := Ideal) x0 x1 x3 x4 x6 x7 x10 x11 x15 x17) x12 x13

/-- The pair messages: the clipped product of (the two gathered normalised rows) + pair features with the pair
    weight. -/
theorem msg2 : val_main_v95 (F := Ideal) x0 x1 x2 x3 x4 x5 x6 x7 x10 x11 x12 x13 x15 x16 x17
    = actA (val_main_v84 (F := Ideal) x0 x1 x3 x4 x6 x7 x10 x11 x12 x13 x15 x16 x17)
        (val_main_v91 (F := Ideal) x0 x1 x3 x4 x6 x7 x10 x11 x12 x13 x15 x16 x17) x2 x5 := by
  funext i
  rw [val_main_v95_apply, val_main_call1_v0_apply, val_main_call1_cst_apply, val_main_v94_apply]
  simp only [val_main_v93_apply, val_main_v92_apply]
  generalize val_main_v84 (F := Ideal) x0 x1 x3 x4 x6 x7 x10 x11 x12 x13 x15 x16 x17 = g
  generalize val_main_v91 (F := Ideal) x0 x1 x3 x4 x6 x7 x10 x11 x12 x13 x15 x16 x17 = h
  simp only [Ideal.maximumf_def, Ideal.addf_def, Ideal.ofBits_def, Ideal.ofBits_zero_f32]
  refine congrArg (fun t => max t (0 : EReal)) (Finset.sum_congr rfl fun k _ => ?_)
  have hl : lidx_main_v94 i k = ix2 (r0 i) k :=
    funext fun a => Fin.ext (by match a with | ⟨0, _⟩ => rfl | ⟨1, _⟩ => rfl)
  have hr : ridx_main_v94 i k = ix2 k (c1 i) :=
    funext fun a => Fin.ext (by match a with | ⟨0, _⟩ => rfl | ⟨1, _⟩ => rfl)
  rw [hl, hr]
  rfl

/-- The second residual update, of the updated table, bracketed `x + (agg·W + b)`. -/
theorem res2 : val_main_v103 (F := Ideal) x0 x1 x2 x3 x4 x5 x6 x7 x8 x9 x10 x11 x12 x13 x15 x16 x17
    = resRefA (val_main_v98 (F := Ideal) x0 x1 x2 x3 x4 x5 x6 x7 x10 x11 x12 x13 x15 x16 x17)
        (val_main_v49 (F := Ideal) x0 x1 x3 x4 x6 x7 x10 x11 x15 x17) x8 x9 := by
  funext i
  rw [val_main_v103_apply, val_main_v102_apply, val_main_v101_apply, val_main_v100_apply, val_main_v99_apply]
  generalize val_main_v98 (F := Ideal) x0 x1 x2 x3 x4 x5 x6 x7 x10 x11 x12 x13 x15 x16 x17 = g
  generalize val_main_v49 (F := Ideal) x0 x1 x3 x4 x6 x7 x10 x11 x15 x17 = y
  have hb : idx_main_v100 (idx_main_v101 i) = ix1 (c1 i) :=
    funext fun a => Fin.ext (by match a with | ⟨0, _⟩ => rfl)
  rw [hb]
  simp only [Ideal.addf_def]
  refine congrArg (fun t => y i + (t + x9 (ix1 (c1 i)))) (Finset.sum_congr rfl fun k _ => ?_)
  have hl : lidx_main_v99 i k = ix2 (r0 i) k :=
    funext fun a => Fin.ext (by match a with | ⟨0, _⟩ => rfl | ⟨1, _⟩ => rfl)
  have hr : ridx_main_v99 i k = ix2 k (c1 i) :=
    funext fun a => Fin.ext (by match a with | ⟨0, _⟩ => rfl | ⟨1, _⟩ => rfl)
  rw [hl, hr]
  rfl

end Cert.ReferenceIdeal.Stages

end
-- ==== Proof.LibGatherRowsClamped.lean ====
/-
  A row gather read at an index, for EVERY start index.

  A `stablehlo.gather` that picks whole rows of an N × C operand by one start index per result row (axis 0
  collapsed, axis 1 an offset axis, slice sizes 1 × C) reads, at result index (e, c), the operand at
  (ρ e, c), where ρ e is row e's start index read as a signed integer and clamped into [0, N − 1]: the
  clamp is the operation's own, so no condition on the index is needed, and the row read does not depend
  on the operand.  Hence any function applied row by row commutes with the gather.
  The statement takes an arbitrary dimension-number record with equations naming its fields, so it applies
  to any record whose fields are those lists by `rfl`.
-/
import Idealize.ShloMosaic.PureOps.ShapeOps
import Idealize.ShloMosaic.Lib.ValueIdx

noncomputable section

namespace Cert.GatherRows

open Idealize.ShloMosaic Idealize.ShloMosaic.ValueIdx

variable {N C E w : Nat} {α : Type}

/-- The operand row that result row `e` reads: its start index, read signed, clamped into `[0, N − 1]`. -/
def rowOf (hN : 0 < N) (idx : IVec ⟨2, ![E, 1]⟩ w) (e : Fin E) : Fin N :=
  ⟨min (idx (ix2 e 0)).toInt.toNat (N - 1), by omega⟩

/-- Result index `(e, c)` reads the operand at `(rowOf idx e, c)`. -/
private theorem operandIdx_eq (wf) (hN : 0 < N) (idx : IVec ⟨2, ![E, 1]⟩ w) (e : Fin E) (c : Fin C) :
    (⟨[1], [0], [], [], [0], 1, ![1, C], wf⟩ : GatherDims ⟨2, ![N, C]⟩ ⟨2, ![E, 1]⟩ ⟨2, ![E, C]⟩).operandIdx
        (ix2 e c) idx = ix2 (rowOf hN idx e) c := by
  funext a
  refine Fin.ext ?_
  show GatherDims.start _ (ix2 e c) idx a + GatherDims.batchCoord _ (ix2 e c) a + GatherDims.offCoord _ (ix2 e c) a = _
  rw [GatherDims.batchCoord_eq_zero _ _ _ List.not_mem_nil, Nat.add_zero]
  match a with
  | ⟨0, _⟩ =>
    show GatherDims.start _ (ix2 e c) idx 0 + GatherDims.offCoord _ (ix2 e c) 0 = (rowOf hN idx e).val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1], [0], [], [], [0], 1, ![1, C], wf⟩ :
        GatherDims ⟨2, ![N, C]⟩ ⟨2, ![E, 1]⟩ ⟨2, ![E, C]⟩) (ix2 e c)
        ⟨List.idxOf (0 : Fin 2) [0], List.idxOf_lt_length_iff.2 List.mem_cons_self⟩ = ix2 e 0 := by
      funext b'; refine Fin.ext ?_
      match b' with
      | ⟨0, _⟩ => rfl
      | ⟨1, _⟩ => rfl
    rw [hsi]
    rfl
  | ⟨1, _⟩ =>
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (by simp)]
    show GatherDims.start _ (ix2 e c) idx 1 + GatherDims.offCoord _ (ix2 e c) 1 = c.val
    rw [hs, Nat.zero_add]; rfl

/-- `x[idx]` over an N × C operand READ AT (e, c): the operand's row `rowOf idx e`, whatever the start index. -/
theorem gather_apply (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C]) (hN : 0 < N)
    (x : (⟨2, ![N, C]⟩ : Shape).Idx → α) (idx : IVec ⟨2, ![E, 1]⟩ w) (e : Fin E) (c : Fin C) :
    Host.gather d x idx (ix2 e c) = x (ix2 (rowOf hN idx e) c) := by
  obtain ⟨od, cs, ob, sb, sm, iv, ss, wf⟩ := d
  dsimp only at hod hcs hob hsb hsm hiv hss
  subst hod hcs hob hsb hsm hiv hss
  unfold Host.gather
  rw [operandIdx_eq wf hN idx e c]

/-- So a function `f` of rows commutes with the gather: gathering the array of `f`'s rows is `f` of the
    gathered rows. -/
theorem gather_rowwise (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C]) (hN : 0 < N) {β : Type}
    (f : (Fin C → α) → Fin C → β) (x : (⟨2, ![N, C]⟩ : Shape).Idx → α) (idx : IVec ⟨2, ![E, 1]⟩ w) (e : Fin E) (c : Fin C) :
    Host.gather d (fun i : (⟨2, ![N, C]⟩ : Shape).Idx => f (fun k => x (ix2 ⟨(i 0).val, (i 0).isLt⟩ k)) ⟨(i 1).val, (i 1).isLt⟩) idx (ix2 e c)
      = f (fun k => Host.gather d x idx (ix2 e k)) c := by
  rw [gather_apply d hod hcs hob hsb hsm hiv hss hN]
  have : (fun k => Host.gather d x idx (ix2 e k)) = fun k => x (ix2 (rowOf hN idx e) k) :=
    funext fun k => gather_apply d hod hcs hob hsb hsm hiv hss hN x idx e k
  rw [this]
  rfl

end Cert.GatherRows

end
-- ==== Proof.Bridge.lean ====
/-
  The kernel program's result is the reference's.

  Both programs gather node rows by the same start indices, and a row gather reads, at every result row, one whole
  row of its operand (the start index clamped into the table): so gathering the normalised table is normalising
  the gathered rows, and the kernel's message stages, which normalise the rows they are handed, are the reference's,
  which are handed normalised rows.  The segment sums are the same operation on both sides, applied to equal
  messages; the residual updates differ only in how their three summands are bracketed.
-/
import proofs.«424622_j16484084482419_3_alg».proof.Proof.KernelTerms
import proofs.«424622_j16484084482419_3_alg».proof.Proof.RefStages
import proofs.«424622_j16484084482419_3_alg».proof.Proof.Stages
import proofs.«424622_j16484084482419_3_alg».proof.Proof.LibGatherRowsClamped

noncomputable section

namespace Cert.Bridge

open Cert.Rows Cert.KernelIdeal.Terms
open Idealize.ShloMosaic Idealize.ShloMosaic.TcCoe Idealize.ShloMosaic.ValueIdx

variable (a0 : (⟨Cert.KernelIdeal.S100000x128, .f32⟩ : BufTy).Contents (Elt Ideal))
  (a1 a2 : (⟨Cert.KernelIdeal.S400000x128, .f32⟩ : BufTy).Contents (Elt Ideal))
  (a3 : (⟨Cert.KernelIdeal.S800000x128, .f32⟩ : BufTy).Contents (Elt Ideal))
  (a4 a5 a6 a8 : (⟨Cert.KernelIdeal.S128x128, .f32⟩ : BufTy).Contents (Elt Ideal))
  (a7 a9 a10 a11 a12 a13 : (⟨Cert.KernelIdeal.S128, .f32⟩ : BufTy).Contents (Elt Ideal))
  (a15 a16 : (⟨Cert.KernelIdeal.S400000x2, .i32⟩ : BufTy).Contents (Elt Ideal))
  (a17 : (⟨Cert.KernelIdeal.S800000, .i32⟩ : BufTy).Contents (Elt Ideal))

section Stages

open Cert.ReferenceIdeal.Read Cert.GatherRows

/-! ## A row gather commutes with LayerNorm of every row -/

/-- Gathering rows of the normalised table is normalising the gathered rows: result row `e` of the gather is one
    whole row of its operand (the one its start index names, clamped into the table), whatever the operand. -/
theorem gather_lnA (d : GatherDims ⟨2, ![100000, 128]⟩ ⟨2, ![400000, 1]⟩ ⟨2, ![400000, 128]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, 128]) (x : Arr 100000) (w b : V128) (idx : IVec ⟨2, ![400000, 1]⟩ 32) :
    Host.gather d (lnA x w b) idx = lnA (Host.gather d x idx) w b := by
  funext i
  obtain ⟨e, c, rfl⟩ : ∃ (e : Fin 400000) (c : Fin 128), i = ix2 e c := ⟨r0 i, c1 i, (ix2_r0_c1 i).symm⟩
  have hN : 0 < 100000 := by decide
  have hrow : row (Host.gather d x idx) e = row x (rowOf hN idx e) :=
    funext fun k => gather_apply d hod hcs hob hsb hsm hiv hss hN x idx e k
  rw [gather_apply d hod hcs hob hsb hsm hiv hss hN]
  show ln (row x (rowOf hN idx e)) (vec w) (vec b) c = ln (row (Host.gather d x idx) e) (vec w) (vec b) c
  rw [hrow]

/-! ## The index stages and the angle sum are the same terms in both programs -/

theorem v36_eq : val_main_v36 (F := Ideal) a15 = wrap (col0 a15) := rfl
theorem v83_eq : val_main_v83 (F := Ideal) a16 = wrap (col0 a16) := rfl
theorem v90_eq : val_main_v90 (F := Ideal) a16 = wrap (col1 a16) := rfl
theorem v43_eq : val_main_v43 (F := Ideal) a15 = seg (col1 a15) := rfl
theorem v97_eq : val_main_v97 (F := Ideal) a16 = seg (col0 a16) := rfl
theorem v26_eq : val_main_v26 (F := Ideal) a3 a17 = bang a3 a17 := rfl

/-! ## The first sublayer -/

/-- The gathered rows of the first normalised table are the normalised gathered rows of the node table. -/
theorem v37_eq : val_main_v37 (F := Ideal) a0 a10 a11 a15 = lnA (gat a0 (wrap (col0 a15))) a10 a11 := by
  unfold val_main_v37
  rw [Cert.ReferenceIdeal.Stages.ln1,
    gather_lnA Cert.ReferenceIdeal.gather_S100000x128_S400000x1_S400000x128_1_0_n_n_0_1_1128 rfl rfl rfl rfl rfl rfl rfl]
  rfl

/-- The bond messages of the two programs. -/
theorem msg_eq : val_main_v41 (F := Ideal) a0 a1 a3 a4 a10 a11 a15 a17 = msg a0 a1 a3 a4 a10 a11 a15 a17 := by
  rw [Cert.ReferenceIdeal.Stages.msg1, v37_eq, v26_eq]
  unfold msg
  rw [msg1A_eq]

/-- The bond messages summed onto their nodes. -/
theorem v44_eq : val_main_v44 (F := Ideal) a0 a1 a3 a4 a10 a11 a15 a17 = sct (seg (col1 a15)) (msg a0 a1 a3 a4 a10 a11 a15 a17) := by
  unfold val_main_v44
  rw [msg_eq, v43_eq]
  rfl

/-- The node table after the first sublayer. -/
theorem v49_eq : val_main_v49 (F := Ideal) a0 a1 a3 a4 a6 a7 a10 a11 a15 a17 = xnew a0 a1 a3 a4 a6 a7 a10 a11 a15 a17 := by
  rw [Cert.ReferenceIdeal.Stages.res1, resRefA_eq, v44_eq]
  rfl

/-! ## The second sublayer -/

/-- The second normalised table is LayerNorm of every row of the updated table. -/
theorem v73_eq : val_main_v73 (F := Ideal) a0 a1 a3 a4 a6 a7 a10 a11 a12 a13 a15 a17
    = lnA (xnew a0 a1 a3 a4 a6 a7 a10 a11 a15 a17) a12 a13 := by
  rw [Cert.ReferenceIdeal.Stages.ln2, v49_eq]

/-- The rows of the second normalised table gathered by the pairs' first column. -/
theorem v84_eq : val_main_v84 (F := Ideal) a0 a1 a3 a4 a6 a7 a10 a11 a12 a13 a15 a16 a17
    = lnA (gat (xnew a0 a1 a3 a4 a6 a7 a10 a11 a15 a17) (wrap (col0 a16))) a12 a13 := by
  unfold val_main_v84
  rw [v73_eq, gather_lnA Cert.ReferenceIdeal.gather_S100000x128_S400000x1_S400000x128_1_0_n_n_0_1_1128 rfl rfl rfl rfl rfl rfl rfl]
  rfl

/-- The rows of the second normalised table gathered by the pairs' second column. -/
theorem v91_eq : val_main_v91 (F := Ideal) a0 a1 a3 a4 a6 a7 a10 a11 a12 a13 a15 a16 a17
    = lnA (gat (xnew a0 a1 a3 a4 a6 a7 a10 a11 a15 a17) (wrap (col1 a16))) a12 a13 := by
  unfold val_main_v91
  rw [v73_eq, gather_lnA Cert.ReferenceIdeal.gather_S100000x128_S400000x1_S400000x128_1_0_n_n_0_1_1128 rfl rfl rfl rfl rfl rfl rfl]
  rfl

/-- The pair messages of the two programs. -/
theorem msg2_eq : val_main_v95 (F := Ideal) a0 a1 a2 a3 a4 a5 a6 a7 a10 a11 a12 a13 a15 a16 a17 = msg2 a0 a1 a2 a3 a4 a5 a6 a7 a10 a11 a12 a13 a15 a16 a17 := by
  rw [Cert.ReferenceIdeal.Stages.msg2, v84_eq, v91_eq]
  unfold msg2
  rw [msg2A_eq]

/-- The pair messages summed onto their nodes. -/
theorem v98_eq : val_main_v98 (F := Ideal) a0 a1 a2 a3 a4 a5 a6 a7 a10 a11 a12 a13 a15 a16 a17 = sct (seg (col0 a16)) (msg2 a0 a1 a2 a3 a4 a5 a6 a7 a10 a11 a12 a13 a15 a16 a17) := by
  unfold val_main_v98
  rw [msg2_eq, v97_eq]
  rfl

end Stages

/-- The kernel program's result, as a function of the argument arrays, is the reference's last stage. -/
theorem out_eq_ref :
    out a0 a1 a2 a3 a4 a5 a6 a8 a7 a9 a10 a11 a12 a13 a15 a16 a17
      = Cert.ReferenceIdeal.Read.val_main_v103 (F := Ideal) a0 a1 a2 a3 a4 a5 a6 a7 a8 a9 a10 a11 a12 a13 a15 a16 a17 := by
  rw [Cert.ReferenceIdeal.Stages.res2, resRefA_eq, v98_eq, v49_eq]
  rfl

end Cert.Bridge

end
-- ==== Proof.lean ====
/-
  The node-update layer of a molecular message-passing network, as four Pallas regions among host gathers and
  segment sums, against its plain reference: equal results over the extended reals.

  The kernel program gathers node rows first and normalises them inside its message regions; the reference
  normalises the node table first and gathers normalised rows.  A row gather reads whole rows (its start index
  clamped into the table), and LayerNorm acts on each row by itself, so the two orders give the same messages.  The
  matrix products are the same sums on both sides, the segment sums the same operation applied to equal messages,
  and the residual updates differ only in how three summands are bracketed.  No step needs the inputs finite.

  The three frames are generated (the reference's is its generated run with the result dropped); the ideal pass
  rewrote nothing, so `preserves` is trivial; `algebraic` sets the kernel program's run, with its result buffer read
  back through the program's boundaries, beside the reference's run read one stage at a time.
-/
import proofs.«424622_j16484084482419_3_alg».proof.Defs
import proofs.«424622_j16484084482419_3_alg».proof.Proof.Gen.Kernel
import proofs.«424622_j16484084482419_3_alg».proof.Proof.Gen.Kernel.Skeleton
import proofs.«424622_j16484084482419_3_alg».proof.Proof.Gen.Kernel.Launch
import proofs.«424622_j16484084482419_3_alg».proof.Proof.Gen.Kernel.Points
import proofs.«424622_j16484084482419_3_alg».proof.Proof.Gen.Kernel.Frame
import proofs.«424622_j16484084482419_3_alg».proof.Proof.Gen.KernelIdeal
import proofs.«424622_j16484084482419_3_alg».proof.Proof.Gen.KernelIdeal.Skeleton
import proofs.«424622_j16484084482419_3_alg».proof.Proof.Gen.KernelIdeal.Launch
import proofs.«424622_j16484084482419_3_alg».proof.Proof.Gen.KernelIdeal.Points
import proofs.«424622_j16484084482419_3_alg».proof.Proof.Gen.KernelIdeal.Frame
import proofs.«424622_j16484084482419_3_alg».proof.Proof.Gen.ReferenceIdeal
import proofs.«424622_j16484084482419_3_alg».proof.Proof.Gen.ReferenceIdeal.Run
import proofs.«424622_j16484084482419_3_alg».proof.Proof.Gen.ReferenceIdeal.Read
import proofs.«424622_j16484084482419_3_alg».proof.Proof.Gen.Pre_finite_inputs
import proofs.«424622_j16484084482419_3_alg».proof.Proof.KernelIdealRun
import proofs.«424622_j16484084482419_3_alg».proof.Proof.KernelValue
import proofs.«424622_j16484084482419_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs run, the kernel program's result buffer ending at its value
    `Terms.out` of the arguments (the boundary chain) and the reference's at its last stage (its generated run), which
    are one function of the arguments (`Bridge.out_eq_ref`). -/
theorem algebraic : Cert.algebraic_KernelIdeal_ReferenceIdeal := by
  intro m ρ m' ρ' _ hagree
  refine ⟨fun c => Cert.KernelIdeal.Gen.W8 m ρ c (Proc.devRef .tc Cert.KernelIdeal.main_v41),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  show Cert.ReferenceIdeal.Value.res_main_v103 m' c
    = Cert.KernelIdeal.Gen.W8 m ρ c (Proc.devRef .tc Cert.KernelIdeal.main_v41)
  rw [Cert.ReferenceIdeal.Read.val_main_v103_eq, Cert.KernelIdeal.Chain.W8_v41, Cert.Bridge.out_eq_ref,
    h0, h1, h2, h3, h4, h5, h6, h7, h8, h9, h10, h11, h12, h13, h15, h16, h17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
